-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S3355443 : Shape := ⟨1, ![3355443]⟩
abbrev S4096 : Shape := ⟨1, ![4096]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S3355443 : S_.BroadcastsInDim S3355443 (![] : Fin 0 → Fin S3355443.rank)
  reducesTo_S3355443_S_d0 : S3355443.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg2 : IVec S3355443 32) (main_v13 : IVec S_ 1) (main_v15 : IVec S3355443 1) (main_c_5 : IVec S_ 1) : IVec S_ 1 :=
  let main_v16 : IVec S_ 1 := (fun x v => Host.reduce IntOp.andi x v reducesTo_S3355443_S_d0 h_S_) main_v15 main_c_5
  let main_v17 : IVec S_ 1 := andi main_v13 main_v16
  let main_c_6 : IVec S_ 32 := constantI S_ 32 4096#32
  let main_v18 : IVec S3355443 32 := broadcastInDim S3355443 ![] bcast_S_S3355443 main_c_6
  let main_v19 : IVec S3355443 1 := cmpi .slt main_arg2 main_v18
  let main_c_7 : IVec S_ 1 := constantI S_ 1 1#1
  let main_v20 : IVec S_ 1 := (fun x v => Host.reduce IntOp.andi x v reducesTo_S3355443_S_d0 h_S_) main_v19 main_c_7
  let main_v21 : IVec S_ 1 := andi main_v17 main_v20
  main_v21

def fn {F : FTy → Type} [FloatOps F] (main_arg0 : FVec F S64x4096 .f32) (main_arg1 : IVec S3355443 32) (main_arg2 : IVec S3355443 32) (main_arg3 : FVec F S3355443 .f32) (main_arg4 : FVec F S4096 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S3355443 .f32 := Host.absf main_arg3
  let main_cst_0 : FVec F S_ .f32 := constant S_ .f32 0x7F800000#32
  let main_v5 : FVec F S3355443 .f32 := broadcastInDim S3355443 ![] bcast_S_S3355443 main_cst_0
  let main_v6 : IVec S3355443 1 := cmpf .olt main_v4 main_v5
  let main_c_1 : IVec S_ 1 := constantI S_ 1 1#1
  let main_v7 : IVec S_ 1 := (fun x v => Host.reduce IntOp.andi x v reducesTo_S3355443_S_d0 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_c_4 : IVec S_ 32 := constantI S_ 32 4294963200#32
  let main_v14 : IVec S3355443 32 := broadcastInDim S3355443 ![] bcast_S_S3355443 main_c_4
  let main_v15 : IVec S3355443 1 := cmpi .sge main_arg2 main_v14
  let main_c_5 : IVec S_ 1 := constantI S_ 1 1#1
  fn_part1 (F := F) main_arg2 main_v13 main_v15 main_c_5
-- ==== Kernel.lean ====
abbrev S64x4096 : Shape := ⟨2, ![64, 4096]⟩
abbrev S3355443 : Shape := ⟨1, ![3355443]⟩
abbrev S4096 : Shape := ⟨1, ![4096]⟩
abbrev S_ : Shape := ⟨0, ![]⟩
abbrev S4096x4096 : Shape := ⟨2, ![4096, 4096]⟩
abbrev S3355443x1 : Shape := ⟨2, ![3355443, 1]⟩
abbrev S3355443x2 : Shape := ⟨2, ![3355443, 2]⟩
abbrev S1x4096 : Shape := ⟨2, ![1, 4096]⟩
abbrev S64x1024 : Shape := ⟨2, ![64, 1024]⟩
abbrev S1024x2048 : Shape := ⟨2, ![1024, 2048]⟩
abbrev S1x2048 : Shape := ⟨2, ![1, 2048]⟩
abbrev S64x2048 : Shape := ⟨2, ![64, 2048]⟩

abbrev nBuf : Space → Nat
  | .hbm => 27
  | .vmem => 9
  | .smem => 0
  | _ => 0

abbrev bufTy : (tb : Table) → Fin (tcTables nBuf tb) → BufTy
  | .hbm, ⟨0, _⟩ => ⟨S64x4096, .f32⟩
  | .hbm, ⟨1, _⟩ => ⟨S3355443, .i32⟩
  | .hbm, ⟨2, _⟩ => ⟨S3355443, .i32⟩
  | .hbm, ⟨3, _⟩ => ⟨S3355443, .f32⟩
  | .hbm, ⟨4, _⟩ => ⟨S4096, .f32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S3355443, .i32⟩
  | .hbm, ⟨9, _⟩ => ⟨S3355443, .i1⟩
  | .hbm, ⟨10, _⟩ => ⟨S_, .i32⟩
  | .hbm, ⟨11, _⟩ => ⟨S3355443, .i32⟩
  | .hbm, ⟨12, _⟩ => ⟨S3355443, .i32⟩
  | .hbm, ⟨13, _⟩ => ⟨S3355443, .i32⟩
  | .hbm, ⟨14, _⟩ => ⟨S_, .i32⟩
  | .hbm, ⟨15, _⟩ => ⟨S3355443, .i32⟩
  | .hbm, ⟨16, _⟩ => ⟨S3355443, .i1⟩
  | .hbm, ⟨17, _⟩ => ⟨S_, .i32⟩
  | .hbm, ⟨18, _⟩ => ⟨S3355443, .i32⟩
  | .hbm, ⟨19, _⟩ => ⟨S3355443, .i32⟩
  | .hbm, ⟨20, _⟩ => ⟨S3355443, .i32⟩
  | .hbm, ⟨21, _⟩ => ⟨S3355443x1, .i32⟩
  | .hbm, ⟨22, _⟩ => ⟨S3355443x1, .i32⟩
  | .hbm, ⟨23, _⟩ => ⟨S3355443x2, .i32⟩
  | .hbm, ⟨24, _⟩ => ⟨S4096x4096, .f32⟩
  | .hbm, ⟨25, _⟩ => ⟨S1x4096, .f32⟩
  | .hbm, ⟨26, _⟩ => ⟨S64x4096, .f32⟩
  | .local _ .vmem, ⟨0, _⟩ => ⟨S64x1024, .f32⟩
  | .local _ .vmem, ⟨1, _⟩ => ⟨S64x1024, .f32⟩
  | .local _ .vmem, ⟨2, _⟩ => ⟨S1024x2048, .f32⟩
  | .local _ .vmem, ⟨3, _⟩ => ⟨S1024x2048, .f32⟩
  | .local _ .vmem, ⟨4, _⟩ => ⟨S1x2048, .f32⟩
  | .local _ .vmem, ⟨5, _⟩ => ⟨S1x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S4096x4096 : S_.BroadcastsInDim S4096x4096 (![] : Fin 0 → Fin S4096x4096.rank)
  bcast_S_S3355443 : S_.BroadcastsInDim S3355443 (![] : Fin 0 → Fin S3355443.rank)
  bcast_S3355443_S3355443x1_0 : S3355443.BroadcastsInDim S3355443x1 (![0] : Fin 1 → Fin S3355443x1.rank)
  concatenates_S3355443x1_S3355443x1_S3355443x2_d1 : Shape.Concatenates [S3355443x1, S3355443x1] S3355443x2 1
  shapeCasts_S4096_S1x4096 : S4096.ShapeCasts S1x4096
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S64x1024_S64x1024_0_0 : ∀ a, (![0, 0] : Fin 2 → Nat) a + S64x1024.size a ≤ S64x1024.size a
  h_S64x1024 : 0 < S64x1024.numel
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S64x2048 : S1x2048.Broadcasts S64x2048
  scatter_S4096x4096_S3355443x2_S3355443_n_01_01_1_wf : ScatterDims.WF S4096x4096 S3355443x2 S3355443 [] [0, 1] [0, 1] 1
  dot_S64x1024_S1024x2048_S64x2048_1_0_0_1_n_n_wf : DotDims.WF S64x1024 S1024x2048 S64x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S64x4096.size a
  hwx0_0 : ∀ i : grid0.Coords, EltTy.bits .f32 = 32 ∨ (Rect.block (s := S64x4096) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .f32 = 32 ∨ (Rect.block (s := S4096x4096) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S64x4096.size a
  hwx0_3 : ∀ i : grid0.Coords, EltTy.bits .f32 = 32 ∨ (Rect.block (s := S64x4096) S64x2048.size (cc0_transform_3 i) (hinb0_3 i)).WholeWords (EltTy.packing .f32)

variable [Facts₀]

def scatter_S4096x4096_S3355443x2_S3355443_n_01_01_1 : ScatterDims S4096x4096 S3355443x2 S3355443 where
  updateWindowDims := []
  insertedWindowDims := [0, 1]
  scatterDimsToOperandDims := [0, 1]
  indexVectorDim := 1
  wf := scatter_S4096x4096_S3355443x2_S3355443_n_01_01_1_wf
def dot_S64x1024_S1024x2048_S64x2048_1_0_0_1_n_n : DotDims S64x1024 S1024x2048 S64x2048 where
  lhsContracting := [1]
  rhsContracting := [0]
  lhsNonContracting := [0]
  rhsNonContracting := [1]
  lhsBatch := []
  rhsBatch := []
  wf := dot_S64x1024_S1024x2048_S64x2048_1_0_0_1_n_n_wf

abbrev win0_0 : Pipeline.Window sig grid0 :=
  Pipeline.Window.ofSpec (Memref.whole main_arg0) S64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S64x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x4096 : Shape := ⟨2, ![64, 4096]⟩
abbrev S3355443 : Shape := ⟨1, ![3355443]⟩
abbrev S4096 : Shape := ⟨1, ![4096]⟩
abbrev S_ : Shape := ⟨0, ![]⟩
abbrev S1x3355443 : Shape := ⟨2, ![1, 3355443]⟩
abbrev S3355443x1 : Shape := ⟨2, ![3355443, 1]⟩
abbrev S64x3355443 : Shape := ⟨2, ![64, 3355443]⟩
abbrev S1x4096 : Shape := ⟨2, ![1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S3355443, .i32⟩
  | .hbm, ⟨2, _⟩ => ⟨S3355443, .i32⟩
  | .hbm, ⟨3, _⟩ => ⟨S3355443, .f32⟩
  | .hbm, ⟨4, _⟩ => ⟨S4096, .f32⟩
  | .hbm, ⟨5, _⟩ => ⟨S_, .f32⟩
  | .hbm, ⟨6, _⟩ => ⟨S64x4096, .f32⟩
  | .hbm, ⟨7, _⟩ => ⟨S64x4096, .i1⟩
  | .hbm, ⟨8, _⟩ => ⟨S_, .f32⟩
  | .hbm, ⟨9, _⟩ => ⟨S64x4096, .f32⟩
  | .hbm, ⟨10, _⟩ => ⟨S64x4096, .f32⟩
  | .hbm, ⟨11, _⟩ => ⟨S1x3355443, .f32⟩
  | .hbm, ⟨12, _⟩ => ⟨S_, .i32⟩
  | .hbm, ⟨13, _⟩ => ⟨S3355443, .i32⟩
  | .hbm, ⟨14, _⟩ => ⟨S3355443, .i1⟩
  | .hbm, ⟨15, _⟩ => ⟨S_, .i32⟩
  | .hbm, ⟨16, _⟩ => ⟨S3355443, .i32⟩
  | .hbm, ⟨17, _⟩ => ⟨S3355443, .i32⟩
  | .hbm, ⟨18, _⟩ => ⟨S3355443, .i32⟩
  | .hbm, ⟨19, _⟩ => ⟨S3355443x1, .i32⟩
  | .hbm, ⟨20, _⟩ => ⟨S64x3355443, .f32⟩
  | .hbm, ⟨21, _⟩ => ⟨S64x3355443, .f32⟩
  | .hbm, ⟨22, _⟩ => ⟨S64x3355443, .f32⟩
  | .hbm, ⟨23, _⟩ => ⟨S_, .f32⟩
  | .hbm, ⟨24, _⟩ => ⟨S64x4096, .f32⟩
  | .hbm, ⟨25, _⟩ => ⟨S_, .i32⟩
  | .hbm, ⟨26, _⟩ => ⟨S3355443, .i32⟩
  | .hbm, ⟨27, _⟩ => ⟨S3355443, .i1⟩
  | .hbm, ⟨28, _⟩ => ⟨S_, .i32⟩
  | .hbm, ⟨29, _⟩ => ⟨S3355443, .i32⟩
  | .hbm, ⟨30, _⟩ => ⟨S3355443, .i32⟩
  | .hbm, ⟨31, _⟩ => ⟨S3355443, .i32⟩
  | .hbm, ⟨32, _⟩ => ⟨S3355443x1, .i32⟩
  | .hbm, ⟨33, _⟩ => ⟨S64x4096, .f32⟩
  | .hbm, ⟨34, _⟩ => ⟨S1x4096, .f32⟩
  | .hbm, ⟨35, _⟩ => ⟨S64x4096, .f32⟩
  | .hbm, ⟨36, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S_S64x4096 : S_.BroadcastsInDim S64x4096 (![] : Fin 0 → Fin S64x4096.rank)
  bcast_S3355443_S1x3355443_1 : S3355443.BroadcastsInDim S1x3355443 (![1] : Fin 1 → Fin S1x3355443.rank)
  bcast_S_S3355443 : S_.BroadcastsInDim S3355443 (![] : Fin 0 → Fin S3355443.rank)
  bcast_S3355443_S3355443x1_0 : S3355443.BroadcastsInDim S3355443x1 (![0] : Fin 1 → Fin S3355443x1.rank)
  bcast_S1x3355443_S64x3355443_0_1 : S1x3355443.BroadcastsInDim S64x3355443 (![0, 1] : Fin 2 → Fin S64x3355443.rank)
  bcast_S4096_S1x4096_1 : S4096.BroadcastsInDim S1x4096 (![1] : Fin 1 → Fin S1x4096.rank)
  bcast_S1x4096_S64x4096_0_1 : S1x4096.BroadcastsInDim S64x4096 (![0, 1] : Fin 2 → Fin S64x4096.rank)
  gather_S64x4096_S3355443x1_S64x3355443_0_1_n_n_1_1_641_wf : GatherDims.WF S64x4096 S3355443x1 S64x3355443 [0] [1] [] [1] [] 1 ![64, 1]
  scatter_S64x4096_S3355443x1_S64x3355443_0_1_1_1_wf : ScatterDims.WF S64x4096 S3355443x1 S64x3355443 [0] [1] [1] 1

variable [Facts₀]

def gather_S64x4096_S3355443x1_S64x3355443_0_1_n_n_1_1_641 : GatherDims S64x4096 S3355443x1 S64x3355443 where
  offsetDims := [0]
  collapsedSliceDims := [1]
  operandBatchingDims := []
  startIndicesBatchingDims := []
  startIndexMap := [1]
  indexVectorDim := 1
  sliceSizes := ![64, 1]
  wf := gather_S64x4096_S3355443x1_S64x3355443_0_1_n_n_1_1_641_wf
def scatter_S64x4096_S3355443x1_S64x3355443_0_1_1_1 : ScatterDims S64x4096 S3355443x1 S64x3355443 where
  updateWindowDims := [0]
  insertedWindowDims := [1]
  scatterDimsToOperandDims := [1]
  indexVectorDim := 1
  wf := scatter_S64x4096_S3355443x1_S64x3355443_0_1_1_1_wf

class Facts : Prop extends Facts₀ where

variable [Facts]
-- ==== Proof.KernelPieces.lean ====
/-
  What one grid point leaves behind, as values.

  The kernel body keeps a [64, 2048] accumulator in scratch memory across the four contraction steps of one
  output block.  At the first step it stores zeros into the accumulator and then adds the step's product to it;
  at every later step it adds the product to what the step before left; at the last step it also writes the
  accumulator plus the bias row into the output block.  The frame run found, for each of these three control
  cases, the list of stores the body performs; read back, each list is one covering store, so what the case
  leaves is that store's payload: the accumulator update `acc + mask(x) · w` (its first argument the point's
  block of `x`, its second the block of the dense weight, its third the accumulator it read), and at the last
  step the accumulator plus the broadcast bias block.
-/
import proofs.«424134_j9182640079528_1_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Dense

open Cert.KernelIdeal Cert.KernelIdeal.Gen

variable {F : FTy → Type} [FloatOps F]

theorem hz : (![0, 0] : Fin 2 → Nat) = fun _ => 0 := funext fun a => by fin_cases a <;> rfl

/-- A first contraction step: the accumulator is set to zero and the step's product added to it. -/
theorem acc_first (c : Dev nD) (i : grid0.Coords) (a2 : Memref sig .tc .vmem S64x1024 .f32) (h2 : a2.IsWhole)
    (a3 : Memref sig .tc .vmem S1024x2048 .f32) (h3 : a3.IsWhole) (a4 : Memref sig .tc .vmem S1x2048 .f32) (h4 : a4.IsWhole)
    (a5 : Memref sig .tc .vmem S64x2048 .f32) (h5 : a5.IsWhole) (a6 : Memref sig .tc .vmem S64x2048 .f32) (h6 : a6.IsWhole)
    (hc0 : cond0_0 i) (hc1 : ¬cond0_1 i)
    (x0 : Vec F S64x1024 .f32) (x1 : Vec F S1024x2048 .f32) (x2 : Vec F S1x2048 .f32) :
    sout0_A_0 c i a2 h2 a3 h3 a4 h4 a5 h5 a6 h6 hc0 hc1 x0 x1 x2 = k0_pay2 x0 x1 (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S64x2048) hz, View.readCov_unit_zero (S := S64x2048) _ hz]
  simp only [View.readAt_eq_ld, h2.read_unread, h3.read_unread, View.ld_unit_zero (S := S64x1024) hz,
    View.ld_unit_zero (S := S1024x2048) hz, View.ld_unit_zero (S := S64x2048) hz, View.readCov_unit_zero (S := S64x2048) _ hz]

/-- A middle contraction step: the step's product is added to the accumulator the step before left. -/
theorem acc_middle (c : Dev nD) (i : grid0.Coords) (a2 : Memref sig .tc .vmem S64x1024 .f32) (h2 : a2.IsWhole)
    (a3 : Memref sig .tc .vmem S1024x2048 .f32) (h3 : a3.IsWhole) (a4 : Memref sig .tc .vmem S1x2048 .f32) (h4 : a4.IsWhole)
    (a5 : Memref sig .tc .vmem S64x2048 .f32) (h5 : a5.IsWhole) (a6 : Memref sig .tc .vmem S64x2048 .f32) (h6 : a6.IsWhole)
    (hc0 : ¬cond0_0 i) (hc1 : ¬cond0_1 i)
    (x0 : Vec F S64x1024 .f32) (x1 : Vec F S1024x2048 .f32) (x2 : Vec F S1x2048 .f32) (xs0 : Vec F S64x2048 .f32) :
    sout0_B_0 c i a2 h2 a3 h3 a4 h4 a5 h5 a6 h6 hc0 hc1 x0 x1 x2 xs0 = k0_pay2 x0 x1 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero hz]
  simp only [View.readAt_eq_ld, h2.read_unread, h3.read_unread, h6.read_unread, View.ld_unit_zero (S := S64x1024) hz,
    View.ld_unit_zero (S := S1024x2048) hz, View.ld_unit_zero (S := S64x2048) hz]

/-- The last contraction step leaves the same update in the accumulator … -/
theorem acc_last (c : Dev nD) (i : grid0.Coords) (a2 : Memref sig .tc .vmem S64x1024 .f32) (h2 : a2.IsWhole)
    (a3 : Memref sig .tc .vmem S1024x2048 .f32) (h3 : a3.IsWhole) (a4 : Memref sig .tc .vmem S1x2048 .f32) (h4 : a4.IsWhole)
    (a5 : Memref sig .tc .vmem S64x2048 .f32) (h5 : a5.IsWhole) (a6 : Memref sig .tc .vmem S64x2048 .f32) (h6 : a6.IsWhole)
    (hc0 : ¬cond0_0 i) (hc1 : cond0_1 i)
    (x0 : Vec F S64x1024 .f32) (x1 : Vec F S1024x2048 .f32) (x2 : Vec F S1x2048 .f32) (xs0 : Vec F S64x2048 .f32) :
    sout0_C_0 c i a2 h2 a3 h3 a4 h4 a5 h5 a6 h6 hc0 hc1 x0 x1 x2 xs0 = k0_pay2 x0 x1 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz]
  simp only [View.readAt_eq_ld, h2.read_unread, h3.read_unread, h6.read_unread, View.ld_unit_zero (S := S64x1024) hz,
    View.ld_unit_zero (S := S1024x2048) hz, View.ld_unit_zero (S := S64x2048) hz]

/-- … and writes that update plus the bias row into the output block. -/
theorem out_last (c : Dev nD) (i : grid0.Coords) (a2 : Memref sig .tc .vmem S64x1024 .f32) (h2 : a2.IsWhole)
    (a3 : Memref sig .tc .vmem S1024x2048 .f32) (h3 : a3.IsWhole) (a4 : Memref sig .tc .vmem S1x2048 .f32) (h4 : a4.IsWhole)
    (a5 : Memref sig .tc .vmem S64x2048 .f32) (h5 : a5.IsWhole) (a6 : Memref sig .tc .vmem S64x2048 .f32) (h6 : a6.IsWhole)
    (hc0 : ¬cond0_0 i) (hc1 : cond0_1 i)
    (x0 : Vec F S64x1024 .f32) (x1 : Vec F S1024x2048 .f32) (x2 : Vec F S1x2048 .f32) (xs0 : Vec F S64x2048 .f32) :
    out0_C_3 c i a2 h2 a3 h3 a4 h4 a5 h5 a6 h6 hc0 hc1 x0 x1 x2 xs0 = k0_pay3 (k0_pay2 x0 x1 xs0) x2 := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz]
  simp only [View.readAt_eq_ld, h2.read_unread, h3.read_unread, h4.read_unread, h6.read_unread, View.ld_unit_zero (S := S64x1024) hz,
    View.ld_unit_zero (S := S1024x2048) hz, View.ld_unit_zero (S := S64x2048) hz, View.ld_unit_zero (S := S1x2048) hz,
    View.readCov_unit_zero (S := S64x2048) _ hz]

end Cert.KernelIdeal.Dense

end
-- ==== Proof.Gate.lean ====
/-
  The event gate on one element: an input passes when it is strictly greater than the threshold (the f32 number
  nearest 0.01, the same word in both programs), and is replaced by zero otherwise.  The gate of a real number is a
  real number: it is the number itself or zero.
-/
import Idealize.ShloMosaic.PureOps.Ideal
import Idealize.ShloMosaic.PureOps.Ideal.Laws
import Idealize.ShloMosaic.Lib.ValueIdx

noncomputable section

namespace Cert.Gate

open Idealize.ShloMosaic Idealize.ShloMosaic.ValueIdx

/-- `x` if `x > threshold`, else `0`, on the extended reals. -/
def gate (a : Ideal .f32) : Ideal .f32 :=
  Scalar.select (FloatOps.cmpf .ogt a (Scalar.ofBits (F := Ideal) .f32 0x3C23D70A#32)) a (Scalar.ofBits (F := Ideal) .f32 0x00000000#32)

/-- The gate keeps finiteness. -/
theorem gate_real (a : ℝ) : ∃ r : ℝ, gate ((a : EReal) : Ideal .f32) = ((r : EReal) : Ideal .f32) := by
  unfold gate
  by_cases h : FloatOps.cmpf (F := Ideal) .ogt ((a : EReal) : Ideal .f32) (Scalar.ofBits (F := Ideal) .f32 0x3C23D70A#32) = 1#1
  · exact ⟨a, by rw [h, select_one]⟩
  · refine ⟨0, ?_⟩
    rw [eq_zero_of_ne_one h, select_zero]
    exact Ideal.ofBits_zero_f32

end Cert.Gate

end
-- ==== Proof.KernelPayloads.lean ====
/-
  The body's three stored values, read at one element of the block, at the ideal values.

  With `b` a batch row and `q` a column of the [64, 2048] block:
    the reset value is 0;
    the accumulator update is  acc(b, q) + Σ_k gate(x(b, k)) · w(k, q)  over the 1024 contraction positions of the
      point's blocks (the casts to bf16 are the identity on extended reals, the matrix product into a zero
      accumulator is the plain sum of products);
    the output value is  acc(b, q) + bias(0, q)  (the [1, 2048] bias block broadcast down the rows).
-/
import proofs.«424134_j9182640079528_1_alg».proof.Proof.Gen.KernelIdeal.Skeleton
import proofs.«424134_j9182640079528_1_alg».proof.Proof.Gate
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Dense

open Cert.KernelIdeal Cert.KernelIdeal.Gen Cert.Gate

/-! The operand indices of the block product: rows × contraction on the left, contraction × columns on the right. -/

theorem lhs_0 (i : S64x2048.Idx) (q : dot_S64x1024_S1024x2048_S64x2048_1_0_0_1_n_n.contr.Idx) :
    (dot_S64x1024_S1024x2048_S64x2048_1_0_0_1_n_n.lhsIdx i q 0).val = (i 0).val := by
  unfold DotDims.lhsIdx
  rw [dif_neg (show ¬(0 : Fin S64x1024.rank) ∈ dot_S64x1024_S1024x2048_S64x2048_1_0_0_1_n_n.lhsBatch by decide),
    dif_pos (show (0 : Fin S64x1024.rank) ∈ dot_S64x1024_S1024x2048_S64x2048_1_0_0_1_n_n.lhsNonContracting by decide)]
  rfl

theorem lhs_1 (i : S64x2048.Idx) (q : dot_S64x1024_S1024x2048_S64x2048_1_0_0_1_n_n.contr.Idx) :
    (dot_S64x1024_S1024x2048_S64x2048_1_0_0_1_n_n.lhsIdx i q 1).val = (q ⟨0, by decide⟩).val :=
  dot_S64x1024_S1024x2048_S64x2048_1_0_0_1_n_n.lhsIdx_val_of_single rfl i q

theorem rhs_0 (i : S64x2048.Idx) (q : dot_S64x1024_S1024x2048_S64x2048_1_0_0_1_n_n.contr.Idx) :
    (dot_S64x1024_S1024x2048_S64x2048_1_0_0_1_n_n.rhsIdx i q 0).val = (q ⟨0, by decide⟩).val :=
  dot_S64x1024_S1024x2048_S64x2048_1_0_0_1_n_n.rhsIdx_val_of_single rfl i q

theorem rhs_1 (i : S64x2048.Idx) (q : dot_S64x1024_S1024x2048_S64x2048_1_0_0_1_n_n.contr.Idx) :
    (dot_S64x1024_S1024x2048_S64x2048_1_0_0_1_n_n.rhsIdx i q 1).val = (i 1).val := by
  unfold DotDims.rhsIdx
  rw [dif_neg (show ¬(1 : Fin S1024x2048.rank) ∈ dot_S64x1024_S1024x2048_S64x2048_1_0_0_1_n_n.rhsBatch by decide),
    dif_pos (show (1 : Fin S1024x2048.rank) ∈ dot_S64x1024_S1024x2048_S64x2048_1_0_0_1_n_n.rhsNonContracting by decide)]
  rfl

/-- The block product into a zero accumulator, at (b, q): the sum over the contraction positions. -/
theorem matmul_block {φ₁ φ₂ : FTy} (l : FVec Ideal S64x1024 φ₁) (r : FVec Ideal S1024x2048 φ₂) (b : Fin 64) (q : Fin 2048) :
    matmul dot_S64x1024_S1024x2048_S64x2048_1_0_0_1_n_n none l r (constant S64x2048 .f32 0x00000000#32) (ix2 b q)
      = ∑ k : Fin 1024, l (ix2 b k) * r (ix2 k q) := by
  simp only [matmul]
  rw [Ideal.matmul_constant_zero_apply,
    ← Equiv.sum_comp (contrEquiv1 dot_S64x1024_S1024x2048_S64x2048_1_0_0_1_n_n 1024 rfl rfl).symm]
  refine Finset.sum_congr rfl fun k _ => ?_
  have hk := contrEquiv1_symm_val dot_S64x1024_S1024x2048_S64x2048_1_0_0_1_n_n 1024 rfl rfl k
  have el : dot_S64x1024_S1024x2048_S64x2048_1_0_0_1_n_n.lhsIdx (ix2 b q)
      ((contrEquiv1 dot_S64x1024_S1024x2048_S64x2048_1_0_0_1_n_n 1024 rfl rfl).symm k) = ix2 b k :=
    funext fun a => Fin.ext (by
      match a with
      | ⟨0, _⟩ => exact lhs_0 _ _
      | ⟨1, _⟩ => exact (lhs_1 _ _).trans hk)
  have er : dot_S64x1024_S1024x2048_S64x2048_1_0_0_1_n_n.rhsIdx (ix2 b q)
      ((contrEquiv1 dot_S64x1024_S1024x2048_S64x2048_1_0_0_1_n_n 1024 rfl rfl).symm k) = ix2 k q :=
    funext fun a => Fin.ext (by
      match a with
      | ⟨0, _⟩ => exact (rhs_0 _ _).trans hk
      | ⟨1, _⟩ => exact rhs_1 _ _)
  rw [el, er]

/-- The reset value. -/
theorem reset_apply (i : S64x2048.Idx) : k0_pay1 (F := Ideal) i = 0 := by
  unfold k0_pay1
  rw [shapeCast_self]
  exact Ideal.ofBits_zero_f32

/-- The accumulator update. -/
theorem update_apply (x0 : Vec Ideal S64x1024 .f32) (x1 : Vec Ideal S1024x2048 .f32) (acc : Vec Ideal S64x2048 .f32)
    (b : Fin 64) (q : Fin 2048) :
    k0_pay2 x0 x1 acc (ix2 b q) = acc (ix2 b q) + ∑ k : Fin 1024, gate (x0 (ix2 b k)) * x1 (ix2 k q) := by
  unfold k0_pay2
  rw [shapeCast_self, shapeCast_self, addf_apply, matmul_block]
  rfl

/-- The output value. -/
theorem output_apply (acc : Vec Ideal S64x2048 .f32) (x2 : Vec Ideal S1x2048 .f32) (b : Fin 64) (q : Fin 2048) :
    k0_pay3 acc x2 (ix2 b q) = acc (ix2 b q) + x2 (ix2 (0 : Fin 1) q) := by
  unfold k0_pay3
  rw [shapeCast_self, addf_apply]
  refine congrArg (acc (ix2 b q) + ·) ?_
  exact broadcastTo_apply x2 broadcasts_S1x2048_S64x2048 (ix2 b q) (ix2 (0 : Fin 1) q) (fun a => match a with
    | ⟨0, _⟩ => by show (0 : Nat) = if (1 : Nat) = 1 then 0 else _; rw [if_pos rfl]
    | ⟨1, _⟩ => by show q.val = if (2048 : Nat) = 1 then 0 else q.val; rw [if_neg (by decide)])

end Cert.KernelIdeal.Dense

end
-- ==== Proof.KernelBlocks.lean ====
/-
  The kernel's result array as one function of the arrays the region finds.

  The grid has eight points, `t = 4·n + k`: output column block `n ∈ {0, 1}` (2048 columns) and contraction step
  `k ∈ {0, 1, 2, 3}` (1024 positions).  At point `t` the body reads block `(0, k)` of `x` [64, 4096], block
  `(k, n)` of the dense weight `w` [4096, 4096] and block `(0, n)` of the bias row [1, 4096].  The accumulator
  after step `k` of block `n` is, at (b, q), the sum over the first `(k + 1)·1024` contraction positions of
  `gate(x(b, p)) · w(p, 2048·n + q)`; the fold over the steps is the library's, and each step adds its own 1024
  positions.  Only the last step of a block writes back, and it writes the full contraction plus the bias.  The two
  written blocks tile the result array, so the array ends as
      out(b, r) = Σ_{p < 4096} gate(x(b, p)) · w(p, r) + bias(0, r).
-/
import proofs.«424134_j9182640079528_1_alg».proof.Proof.KernelPieces
import proofs.«424134_j9182640079528_1_alg».proof.Proof.KernelPayloads
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Dense

open Cert.KernelIdeal Cert.KernelIdeal.Gen Cert.KernelIdeal.Value Cert.Gate

variable (m : (ℓ : Loc nD τ sig) → Buf (Elt Ideal) ℓ) (ρ : Dev nD → PrngReg)

/-- The three arrays the region stages, as it finds them. -/
abbrev xarr (c : Dev nD) : Vec Ideal S64x4096 .f32 := V m c main_arg0
abbrev warr (c : Dev nD) : Vec Ideal S4096x4096 .f32 := V m c main_v14
abbrev barr (c : Dev nD) : Vec Ideal S1x4096 .f32 := V m c main_v15

/-- The block index maps over the grid: point `t` is step `t % 4` of column block `t / 4`. -/
theorem idx_facts : ∀ t : Fin cfg0.N,
    win0_0.index t (0 : Fin 2) = 0 ∧ win0_0.index t (1 : Fin 2) = t.val % 4
    ∧ win0_1.index t (0 : Fin 2) = t.val % 4 ∧ win0_1.index t (1 : Fin 2) = t.val / 4
    ∧ win0_2.index t (0 : Fin 2) = 0 ∧ win0_2.index t (1 : Fin 2) = t.val / 4
    ∧ win0_3.index t (0 : Fin 2) = 0 ∧ win0_3.index t (1 : Fin 2) = t.val / 4 :=
  (by decide +kernel : ∀ t : Fin grid0.N, _)

theorem lt8 (t : Fin cfg0.N) : t.val < 8 := lt_of_lt_of_eq t.isLt (show cfg0.N = 8 from N_0)

/-! Where a block's element sits in its array: block index × block size + the coordinate inside the block. -/

theorem emb0 (t : Fin cfg0.N) (b : Fin 64) (k : Fin 1024) :
    (((cfg0.win 0).blk t).view.emb (ix2 b k) : S64x4096.Idx)
      = ix2 b (⟨t.val % 4 * 1024 + k.val, by have := k.isLt; omega⟩ : Fin 4096) := by
  obtain ⟨e0, e1, -⟩ := idx_facts t
  funext a; apply Fin.ext
  match a with
  | ⟨0, _⟩ => show win0_0.index t (0 : Fin 2) * 64 + 1 * b.val = b.val; omega
  | ⟨1, _⟩ => show win0_0.index t (1 : Fin 2) * 1024 + 1 * k.val = t.val % 4 * 1024 + k.val; omega

theorem emb1 (t : Fin cfg0.N) (k : Fin 1024) (q : Fin 2048) :
    (((cfg0.win 1).blk t).view.emb (ix2 k q) : S4096x4096.Idx)
      = ix2 (⟨t.val % 4 * 1024 + k.val, by have := k.isLt; omega⟩ : Fin 4096)
          (⟨t.val / 4 * 2048 + q.val, by have := lt8 t; have := q.isLt; omega⟩ : Fin 4096) := by
  obtain ⟨-, -, e0, e1, -⟩ := idx_facts t
  funext a; apply Fin.ext
  match a with
  | ⟨0, _⟩ => show win0_1.index t (0 : Fin 2) * 1024 + 1 * k.val = t.val % 4 * 1024 + k.val; omega
  | ⟨1, _⟩ => show win0_1.index t (1 : Fin 2) * 2048 + 1 * q.val = t.val / 4 * 2048 + q.val; omega

theorem emb2 (t : Fin cfg0.N) (q : Fin 2048) :
    (((cfg0.win 2).blk t).view.emb (ix2 (0 : Fin 1) q) : S1x4096.Idx)
      = ix2 (0 : Fin 1) (⟨t.val / 4 * 2048 + q.val, by have := lt8 t; have := q.isLt; omega⟩ : Fin 4096) := by
  obtain ⟨-, -, -, -, e0, e1, -⟩ := idx_facts t
  funext a; apply Fin.ext
  match a with
  | ⟨0, _⟩ => show win0_2.index t (0 : Fin 2) * 1 + 1 * 0 = 0; omega
  | ⟨1, _⟩ => show win0_2.index t (1 : Fin 2) * 2048 + 1 * q.val = t.val / 4 * 2048 + q.val; omega

theorem emb3 (t : Fin cfg0.N) (b : Fin 64) (q : Fin 2048) :
    (((cfg0.win 3).blk t).view.emb (ix2 b q) : S64x4096.Idx)
      = ix2 b (⟨t.val / 4 * 2048 + q.val, by have := lt8 t; have := q.isLt; omega⟩ : Fin 4096) := by
  obtain ⟨-, -, -, -, -, -, e0, e1⟩ := idx_facts t
  funext a; apply Fin.ext
  match a with
  | ⟨0, _⟩ => show win0_3.index t (0 : Fin 2) * 64 + 1 * b.val = b.val; omega
  | ⟨1, _⟩ => show win0_3.index t (1 : Fin 2) * 2048 + 1 * q.val = t.val / 4 * 2048 + q.val; omega

/-- The point's block of `x`, of the weight and of the bias row, read at an element. -/
theorem xblk_apply (c : Dev nD) (t : Fin cfg0.N) (b : Fin 64) (k : Fin 1024) :
    (iblk m c 0 t : Vec Ideal S64x1024 .f32) (ix2 b k)
      = xarr m c (ix2 b (⟨t.val % 4 * 1024 + k.val, by have := k.isLt; omega⟩ : Fin 4096)) := by
  unfold iblk
  rw [View.read_apply, emb0]
  exact cast_eq _ _

theorem wblk_apply (c : Dev nD) (t : Fin cfg0.N) (k : Fin 1024) (q : Fin 2048) :
    (iblk m c 1 t : Vec Ideal S1024x2048 .f32) (ix2 k q)
      = warr m c (ix2 (⟨t.val % 4 * 1024 + k.val, by have := k.isLt; omega⟩ : Fin 4096)
          (⟨t.val / 4 * 2048 + q.val, by have := lt8 t; have := q.isLt; omega⟩ : Fin 4096)) := by
  unfold iblk
  rw [View.read_apply, emb1]
  exact cast_eq _ _

theorem bblk_apply (c : Dev nD) (t : Fin cfg0.N) (q : Fin 2048) :
    (iblk m c 2 t : Vec Ideal S1x2048 .f32) (ix2 (0 : Fin 1) q)
      = barr m c (ix2 (0 : Fin 1) (⟨t.val / 4 * 2048 + q.val, by have := lt8 t; have := q.isLt; omega⟩ : Fin 4096)) := by
  unfold iblk
  rw [View.read_apply, emb2]
  exact cast_eq _ _

/-! ## The accumulator across a block's four steps -/

/-- What point `n` adds to the accumulator at (b, q): its 1024 contraction positions.  (Past the grid: nothing; never used.) -/
def addend (c : Dev nD) (n : ℕ) (i : S64x2048.Idx) : Ideal .f32 :=
  if h : n < 8 then
    ∑ k : Fin 1024, gate (xarr m c (ix2 (i 0) (⟨n % 4 * 1024 + k.val, by have := k.isLt; omega⟩ : Fin 4096)))
      * warr m c (ix2 (⟨n % 4 * 1024 + k.val, by have := k.isLt; omega⟩ : Fin 4096)
          (⟨n / 4 * 2048 + (i 1).val, by have h1 : (i 1).val < 2048 := (i 1).isLt; omega⟩ : Fin 4096))
  else 0

/-- A first step leaves zero plus its addend, whatever the accumulator held. -/
theorem step_first (c : Dev nD) (n : ℕ) (hn : n < cfg0.N) (h0 : n % 4 = 0) (acc : Vec Ideal S64x2048 .f32) (i : S64x2048.Idx) :
    scAt0_0 m c n hn acc i = 0 + addend m c n i := by
  have hN : n < 8 := lt_of_lt_of_eq hn (show cfg0.N = 8 from N_0)
  obtain ⟨b, q, rfl⟩ : ∃ (b : Fin 64) (q : Fin 2048), i = ix2 b q := ⟨i 0, i 1, eq_ix2 i⟩
  unfold scAt0_0
  rw [dif_pos h0, dif_neg (by omega : ¬n % 4 = 3), acc_first, update_apply, reset_apply]
  unfold addend
  rw [dif_pos hN]
  refine congrArg (0 + ·) (Finset.sum_congr rfl fun k _ => ?_)
  rw [xblk_apply, wblk_apply]

/-- Every later step adds its addend to what it found. -/
theorem step_next (c : Dev nD) (n : ℕ) (hn : n < cfg0.N) (h0 : ¬n % 4 = 0) (acc : Vec Ideal S64x2048 .f32) (i : S64x2048.Idx) :
    scAt0_0 m c n hn acc i = acc i + addend m c n i := by
  have hN : n < 8 := lt_of_lt_of_eq hn (show cfg0.N = 8 from N_0)
  obtain ⟨b, q, rfl⟩ : ∃ (b : Fin 64) (q : Fin 2048), i = ix2 b q := ⟨i 0, i 1, eq_ix2 i⟩
  unfold scAt0_0
  rw [dif_neg h0]
  by_cases h1 : n % 4 = 3
  · rw [dif_pos h1, acc_last, update_apply]
    unfold addend
    rw [dif_pos hN]
    refine congrArg (acc (ix2 b q) + ·) (Finset.sum_congr rfl fun k _ => ?_)
    rw [xblk_apply, wblk_apply]
  · rw [dif_neg h1, acc_middle, update_apply]
    unfold addend
    rw [dif_pos hN]
    refine congrArg (acc (ix2 b q) + ·) (Finset.sum_congr rfl fun k _ => ?_)
    rw [xblk_apply, wblk_apply]

/-- The accumulator after point `t`: the addends of its block's steps so far. -/
theorem scratch_eq (c : Dev nD) (t : Fin cfg0.N) (i : S64x2048.Idx) :
    (outsAt0 m c t.val t.isLt).2 i = 0 + ∑ s ∈ Finset.range (t.val % 4 + 1), addend m c (4 * (t.val / 4) + s) i := by
  rw [soutsAt0_0_eq]
  exact Pipeline.accAt_add_apply _ _ (fun _ => (0 : Ideal .f32)) (addend m c) (4 * (t.val / 4)) 3
    (fun h i => step_first m c _ h (by omega) _ i)
    (fun n h acc i hb he => step_next m c n h (by omega) acc i)
    (t.val % 4) (by omega) _ i

/-- At a block's last step the written block is the accumulator plus the bias row. -/
theorem out_eq (c : Dev nD) (t : Fin cfg0.N) (h0 : ¬t.val % 4 = 0) (h1 : t.val % 4 = 3) :
    (outsAt0 m c t.val t.isLt).1 = k0_pay3 (outsAt0 m c t.val t.isLt).2 (iblk m c 2 t) := by
  rw [outsAt0_C m c t h0 h1]
  dsimp only
  rw [out_last, acc_last]

end Cert.KernelIdeal.Dense

end
-- ==== Proof.KernelDense.lean ====
/-
  The kernel's result array as one function of the arrays the region finds.

  A column block's four contraction steps add up to the whole contraction: a sum over the 4096 positions is the sum
  over the four steps of the sums over each step's 1024 positions.  Only the last step of a block writes its output
  block back, and it writes the accumulator plus the bias row; the two written blocks tile the [64, 4096] result, so
  the array ends as
      out(b, r) = Σ_{p < 4096} gate(x(b, p)) · w(p, r) + bias(0, r).
-/
import proofs.«424134_j9182640079528_1_alg».proof.Proof.KernelBlocks

noncomputable section

open Idealize.ShloMosaic Idealize.ShloMosaic.TcCoe Idealize.SL.Sem Idealize.ShloMosaic.ValueIdx
open Idealize.ShloMosaic.Pipeline (Dat)

namespace Cert.KernelIdeal.Dense

open Cert.KernelIdeal Cert.KernelIdeal.Gen Cert.KernelIdeal.Value Cert.Gate

variable (m : (ℓ : Loc nD τ sig) → Buf (Elt Ideal) ℓ) (ρ : Dev nD → PrngReg)

/-- A sum over the 4096 positions is the sum over the four steps of the sums over each step's 1024 positions. -/
theorem sum_steps (f : Fin 4096 → Ideal .f32) :
    ∑ p : Fin 4096, f p = ∑ s : Fin 4, ∑ k : Fin 1024, f (⟨s.val * 1024 + k.val, by have := s.isLt; have := k.isLt; omega⟩ : Fin 4096) := by
  rw [← (finProdFinEquiv : Fin 4 × Fin 1024 ≃ Fin 4096).sum_comp, Fintype.sum_prod_type]
  refine Finset.sum_congr rfl fun s _ => Finset.sum_congr rfl fun k _ => congrArg f (Fin.ext ?_)
  show k.val + 1024 * s.val = s.val * 1024 + k.val
  omega

/-- The four addends of column block `nb` make the whole contraction. -/
theorem sum_addends (c : Dev nD) (nb : ℕ) (hnb : nb < 2) (b : Fin 64) (q : Fin 2048) :
    0 + ∑ s ∈ Finset.range 4, addend m c (4 * nb + s) (ix2 b q)
      = ∑ p : Fin 4096, gate (xarr m c (ix2 b p)) * warr m c (ix2 p (⟨nb * 2048 + q.val, by have := q.isLt; omega⟩ : Fin 4096)) := by
  rw [zero_add, Finset.sum_range, sum_steps]
  refine Finset.sum_congr rfl fun s _ => ?_
  have hs := s.isLt
  unfold addend
  rw [dif_pos (by omega : 4 * nb + s.val < 8)]
  refine Finset.sum_congr rfl fun k _ => ?_
  have e1 : (⟨(4 * nb + s.val) % 4 * 1024 + k.val, by have := k.isLt; omega⟩ : Fin 4096)
      = ⟨s.val * 1024 + k.val, by have := k.isLt; omega⟩ := Fin.ext (by show (4 * nb + s.val) % 4 * 1024 + k.val = s.val * 1024 + k.val; omega)
  have e2 : (⟨(4 * nb + s.val) / 4 * 2048 + q.val, by have := q.isLt; omega⟩ : Fin 4096)
      = ⟨nb * 2048 + q.val, by have := q.isLt; omega⟩ := Fin.ext (by show (4 * nb + s.val) / 4 * 2048 + q.val = nb * 2048 + q.val; omega)
  show gate (xarr m c (ix2 b (⟨(4 * nb + s.val) % 4 * 1024 + k.val, _⟩ : Fin 4096)))
      * warr m c (ix2 (⟨(4 * nb + s.val) % 4 * 1024 + k.val, _⟩ : Fin 4096) (⟨(4 * nb + s.val) / 4 * 2048 + q.val, _⟩ : Fin 4096)) = _
  rw [e1, e2]

/-- The dense layer on the arrays the region finds: out(b, r) = Σ_p gate(x(b, p)) · w(p, r) + bias(0, r). -/
def dense (c : Dev nD) : Vec Ideal S64x4096 .f32 := fun i =>
  (∑ p : Fin 4096, gate (xarr m c (ix2 (i 0) p)) * warr m c (ix2 p (i 1))) + barr m c (ix2 (0 : Fin 1) (i 1))

theorem dense_apply (c : Dev nD) (b : Fin 64) (r : Fin 4096) :
    dense m c (ix2 b r) = (∑ p : Fin 4096, gate (xarr m c (ix2 b p)) * warr m c (ix2 p r)) + barr m c (ix2 (0 : Fin 1) r) := by
  unfold dense
  rfl

/-- What a block's last step writes back is that block of `dense`. -/
theorem flushed_eq (c : Dev nD) (t : Fin cfg0.N) (hf : (cfg0.win 3).flush t = true) :
    (dats m 0 c).flushed 3 t = ((cfg0.win 3).blk t).view.read (Elt Ideal) (dense m c) := by
  have h1 : t.val % 4 = 3 := (flush0_3 t).mp hf
  have h0 : ¬t.val % 4 = 0 := by omega
  have ht := lt8 t
  rw [flushed3, out_eq m c t h0 h1]
  funext j
  obtain ⟨b, q, rfl⟩ : ∃ (b : Fin 64) (q : Fin 2048), j = ix2 b q := ⟨j 0, j 1, eq_ix2 j⟩
  rw [View.read_apply, cast_eq, emb3, dense_apply]
  show k0_pay3 (outsAt0 m c t.val t.isLt).2 (iblk m c 2 t) (ix2 b q) = _
  rw [output_apply, scratch_eq, bblk_apply, show t.val % 4 + 1 = 4 by omega, sum_addends m c (t.val / 4) (by omega) b q]

/-- An index of the array is in point `t`'s block iff each coordinate is in the block's range on its axis. -/
theorem mem_blk3 (t : Fin cfg0.N) (i : S64x4096.Idx) :
    i ∈ ((cfg0.win 3).blk t).view.set ↔ ∀ a : Fin 2, win0_3.index t a * S64x2048.size a ≤ (i a).val ∧ (i a).val < win0_3.index t a * S64x2048.size a + S64x2048.size a := by
  show i ∈ ((View.whole main_v16).slice (win0_3.rect t)).set ↔ _
  rw [View.set_slice_whole, Rect.mem_set_unit]
  exact Iff.rfl

/-- Every element of the result array is written by the last step of its column block. -/
theorem cover (c : Dev nD) (i : S64x4096.Idx) :
    ∃ t : Fin cfg0.N, (cfg0.win 3).flush t = true ∧ i ∈ ((cfg0.win 3).blk t).view.set := by
  have hi0 : (i 0).val < 64 := (i 0).isLt
  have hi1 : (i 1).val < 4096 := (i 1).isLt
  obtain ⟨t, htv⟩ : ∃ t : Fin cfg0.N, t.val = 4 * ((i 1).val / 2048) + 3 :=
    ⟨⟨4 * ((i 1).val / 2048) + 3, by rw [show cfg0.N = 8 from N_0]; omega⟩, rfl⟩
  obtain ⟨-, -, -, -, -, -, e0, e1⟩ := idx_facts t
  refine ⟨t, (flush0_3 t).mpr (by omega), ?_⟩
  rw [mem_blk3]
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 2048 ≤ (i 1).val ∧ (i 1).val < win0_3.index t (1 : Fin 2) * 2048 + 2048; omega

/-- So the result array ends holding `dense`. -/
theorem final (c : Dev nD) : (dats m 0 c).arrAt 3 cfg0.N = dense m c :=
  (dats m 0 c).arrAt_eq_of_cover 3 (dense m c) (fun t hf => flushed_eq m c t hf) (cover c)

/-- The run, read: the result array at `dense`, the arguments unchanged. -/
theorem run : θ_run defs (onTc (τ := τ) (main (F := Ideal))) ⟨m, fun _ => 0, ρ⟩ fun r => ∀ c : Dev nD,
      r.2.mem ((c : Thread nD τ).loc main_v16) = dense m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Dense

end
-- ==== Proof.IndexMaps.lean ====
/-
  Index maps of three gather / scatter patterns.

  StableHLO's gather and scatter say, through lists of dimension numbers, which operand element a result index (gather)
  or an update index (scatter) touches.  A gather's start index is read signed and clamped so that its slice fits the
  operand; a scatter's start index is read signed and not clamped, and an update whose target leaves the operand is
  dropped.  Below these definitions are evaluated at three patterns of dimension numbers, with every extent a variable:
  the lists enter as equations, and only the small literal lists (of length at most two) are ever computed with.
-/
import Idealize.ShloMosaic.PureOps.Ideal
import Idealize.ShloMosaic.Lib.ValueIdx

namespace Cert.IndexMaps

open Idealize.ShloMosaic Idealize.ShloMosaic.ValueIdx

/-! ## Two general facts -/

/-- An update lands on operand element `i` exactly when, on every operand axis, its window's start plus its window
    coordinate is `i`'s coordinate: the sum then lies inside the operand on every axis (it is a coordinate of `i`),
    and conversely a target inside the operand is the index with those sums as coordinates. -/
theorem resultIdx?_eq_some_iff {s si u : Shape} {w : Nat} (d : ScatterDims s si u) (j : u.Idx) (idx : IVec si w)
    (i : s.Idx) :
    d.resultIdx? j idx = some i ↔ ∀ a, d.start j idx a + (d.window j a : Int) = ((i a).val : Int) := by
  unfold ScatterDims.resultIdx?
  split
  · next h =>
    constructor
    · intro e a
      have e' := Option.some.inj e
      have := congrArg (fun f => (f a).val) e'
      simp only at this
      have h0 := (h a).1
      omega
    · intro e
      congr 1
      funext a
      apply Fin.ext
      have := e a
      simp only
      omega
  · next h =>
    constructor
    · intro e; cases e
    · intro e
      exfalso
      apply h
      intro a
      have := e a
      have := (i a).isLt
      omega

/-- In a one-element list every position holds that element. -/
theorem getElem_of_eq_singleton {α : Type} {L : List α} {a : α} (hL : L = [a]) (k : Nat) (h : k < L.length) :
    L[k] = a := by
  subst hL
  have : k = 0 := by simpa using h
  subst this
  rfl

/-! ## A scatter of single elements by index pairs -/

/-- A scatter of a vector of n updates into an [N, M] matrix by [n, 2] index pairs: every operand axis is an inserted
    window axis (no window coordinates: the window is one element), the index vector lies on axis 1 and names operand
    axes 0 and 1 in order.  The target of update j on axis a is therefore index word (j, a) read signed, so update j
    lands on element i exactly when its two index words, read signed, are i's two coordinates. -/
theorem resultIdx?_pair {N M n w : Nat} (d : ScatterDims ⟨2, ![N, M]⟩ ⟨2, ![n, 2]⟩ ⟨1, ![n]⟩)
    (huw : d.updateWindowDims = []) (hiw : d.insertedWindowDims = [0, 1])
    (hsd : d.scatterDimsToOperandDims = [0, 1]) (hivd : d.indexVectorDim = 1)
    (idx : IVec ⟨2, ![n, 2]⟩ w) (j : (⟨1, ![n]⟩ : Shape).Idx) (i : (⟨2, ![N, M]⟩ : Shape).Idx) :
    d.resultIdx? j idx = some i ↔
      (idx (ix2 (j 0) (0 : Fin 2))).toInt = ((i 0).val : Int) ∧ (idx (ix2 (j 0) (1 : Fin 2))).toInt = ((i 1).val : Int) := by
  rw [resultIdx?_eq_some_iff, Fin.forall_fin_two]
  have hk : d.sKept = [] := by
    show (List.finRange 2).filter (· ∉ d.insertedWindowDims) = []
    rw [hiw]; rfl
  have hus : d.uScatter = [0] := by
    show (List.finRange 1).filter (· ∉ d.updateWindowDims) = [0]
    rw [huw]; rfl
  have hw : ∀ a : Fin 2, d.window j a = 0 := fun a => by
    unfold ScatterDims.window
    rw [dif_neg (by rw [hk]; exact List.not_mem_nil)]
  -- the index word read for component `c` of the start index sits at row `j 0`, column `c`
  have hsi : ∀ (c : Fin 2) (hc : c.val < d.scatterDimsToOperandDims.length),
      d.siIdx j ⟨c.val, hc⟩ = ix2 (j 0) c := fun c hc => by
    funext b
    match b with
    | ⟨0, _⟩ =>
      unfold ScatterDims.siIdx
      rw [dif_neg (by rw [hivd]; simp)]
      unfold ScatterDims.siCoord
      apply Fin.ext
      simp only [Fin.val_cast]
      rw [getElem_of_eq_singleton hus]
    | ⟨1, _⟩ =>
      unfold ScatterDims.siIdx
      rw [dif_pos (by rw [hivd])]
      rfl
  have hs : ∀ a : Fin 2, d.start j idx a = (idx (ix2 (j 0) a)).toInt := fun a => by
    have hmem : a ∈ d.scatterDimsToOperandDims := by
      rw [hsd]; match a with
      | ⟨0, _⟩ => simp
      | ⟨1, _⟩ => simp
    have hpos : List.idxOf a d.scatterDimsToOperandDims = a.val := by
      rw [hsd]; match a with
      | ⟨0, _⟩ => simp
      | ⟨1, _⟩ => simp
    unfold ScatterDims.start
    rw [dif_pos hmem]
    have key : ∀ (p : Nat) (hp : p < d.scatterDimsToOperandDims.length) (e : p = a.val),
        d.siIdx j ⟨p, hp⟩ = ix2 (j 0) a := fun p hp e => by subst e; exact hsi a hp
    rw [key _ _ hpos]
    rfl
  rw [hw 0, hw 1, hs 0, hs 1]
  simp only [Int.natCast_zero, Int.add_zero]

/-! ## A scatter of rows' entries by a column of indices -/

/-- A scatter of [B, n] updates into a [B, M] matrix by an [n, 1] column of indices: axis 0 of the updates is the
    window axis and goes to operand axis 0, operand axis 1 is inserted and named by the one index component.  On axis 0
    the target is the update's own first coordinate (start 0, window coordinate `j 0`); on axis 1 it is index word
    `j 1` read signed (window coordinate 0).  So update (b', j) lands on (b, r) exactly when b' = b and that word is r. -/
theorem resultIdx?_rows {B M n w : Nat} (d : ScatterDims ⟨2, ![B, M]⟩ ⟨2, ![n, 1]⟩ ⟨2, ![B, n]⟩)
    (huw : d.updateWindowDims = [0]) (hiw : d.insertedWindowDims = [1])
    (hsd : d.scatterDimsToOperandDims = [1]) (hivd : d.indexVectorDim = 1)
    (idx : IVec ⟨2, ![n, 1]⟩ w) (j : (⟨2, ![B, n]⟩ : Shape).Idx) (i : (⟨2, ![B, M]⟩ : Shape).Idx) :
    d.resultIdx? j idx = some i ↔
      (j 0).val = (i 0).val ∧ (idx (ix2 (j 1) (0 : Fin 1))).toInt = ((i 1).val : Int) := by
  rw [resultIdx?_eq_some_iff, Fin.forall_fin_two]
  have hk : d.sKept = [0] := by
    show (List.finRange 2).filter (· ∉ d.insertedWindowDims) = [0]
    rw [hiw]; rfl
  have hsi : d.siKept = [0] := by
    show (List.finRange 2).filter (·.val ≠ d.indexVectorDim) = [0]
    rw [hivd]; rfl
  have hus : d.uScatter = [1] := by
    show (List.finRange 2).filter (· ∉ d.updateWindowDims) = [1]
    rw [huw]; rfl
  have hw0 : d.window j 0 = (j 0).val := by
    unfold ScatterDims.window
    rw [dif_pos (by rw [hk]; exact List.mem_singleton.mpr rfl)]
    rw [getElem_of_eq_singleton huw]
  have hw1 : d.window j 1 = 0 := by
    unfold ScatterDims.window
    rw [dif_neg (by rw [hk]; simp)]
  have hs0 : d.start j idx 0 = 0 := by
    unfold ScatterDims.start
    rw [dif_neg (by rw [hsd]; simp)]
  have hs1 : d.start j idx 1 = (idx (ix2 (j 1) (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      rw [getElem_of_eq_singleton hus]
    | ⟨1, _⟩ =>
      unfold ScatterDims.siIdx
      rw [dif_pos (by rw [hivd])]
      apply Fin.ext
      show List.idxOf (1 : Fin 2) d.scatterDimsToOperandDims = 0
      rw [hsd]; simp
  rw [hw0, hw1, hs0, hs1]
  constructor
  · rintro ⟨h0, h1⟩; exact ⟨by omega, by omega⟩
  · rintro ⟨h0, h1⟩; exact ⟨by omega, by omega⟩

/-! ## A gather of whole columns -/

/-- A gather of whole columns: from a [B, M] operand and an [n, 1] column of start indices, result (b, j) is the
    operand at row b and at column "index word j read signed and clamped into [0, M − 1]".  Result axis 0 is the one
    offset axis and reads operand axis 0 (start 0 there); operand axis 1 is collapsed (slice size 1, so the clamp is to
    M − 1) and start-indexed by the one index component; there are no batching axes. -/
theorem gather_cols {α : Type} {B M n w : Nat} (d : GatherDims ⟨2, ![B, M]⟩ ⟨2, ![n, 1]⟩ ⟨2, ![B, n]⟩)
    (hoff : d.offsetDims = [0]) (hcoll : d.collapsedSliceDims = [1]) (hob : d.operandBatchingDims = [])
    (hsim : d.startIndexMap = [1]) (hivd : d.indexVectorDim = 1) (hM : 0 < M)
    (x : (⟨2, ![B, M]⟩ : Shape).Idx → α) (idx : IVec ⟨2, ![n, 1]⟩ w) (j : (⟨2, ![B, n]⟩ : Shape).Idx) :
    Host.gather d x idx j = x (ix2 (j 0) ⟨min (idx (ix2 (j 1) (0 : Fin 1))).toInt.toNat (M - 1), by omega⟩) := by
  unfold Host.gather
  congr 1
  have hk : d.sKept = [0] := by
    show (List.finRange 2).filter (· ∉ d.collapsedSliceDims ++ d.operandBatchingDims) = [0]
    rw [hcoll, hob]; rfl
  have hbd : d.batchDims = [1] := by
    show (List.finRange 2).filter (· ∉ d.offsetDims) = [1]
    rw [hoff]; rfl
  have hb : ∀ a : Fin 2, a ∉ d.operandBatchingDims := fun a => by rw [hob]; exact List.not_mem_nil
  funext a
  apply Fin.ext
  simp only [GatherDims.operandIdx, GatherDims.batchCoord_eq_zero _ _ _ (hb _), Nat.add_zero]
  match a with
  | ⟨0, _⟩ =>
    show d.start j idx 0 + d.offCoord j 0 = (j 0).val
    have hs : d.start j idx 0 = 0 := by
      unfold GatherDims.start
      rw [dif_neg (by rw [hsim]; simp)]
    have ho : d.offCoord j 0 = (j 0).val := by
      unfold GatherDims.offCoord
      rw [dif_pos (by rw [hk]; exact List.mem_singleton.mpr rfl)]
      rw [getElem_of_eq_singleton hoff]
    rw [hs, ho, Nat.zero_add]
  | ⟨1, _⟩ =>
    show d.start j idx 1 + d.offCoord j 1 = min (idx (ix2 (j 1) (0 : Fin 1))).toInt.toNat (M - 1)
    have ho : d.offCoord j 1 = 0 := by
      unfold GatherDims.offCoord
      rw [dif_neg (by rw [hk]; simp)]
    have hsl : d.sliceSizes 1 = 1 := d.slice_collapsed 1 (by rw [hcoll]; exact List.mem_singleton.mpr rfl)
    rw [ho, Nat.add_zero]
    unfold GatherDims.start
    rw [dif_pos (by rw [hsim]; exact List.mem_singleton.mpr rfl), hsl]
    show min (idx _).toInt.toNat (M - 1) = _
    congr 3
    congr 1
    funext b
    match b with
    | ⟨0, _⟩ =>
      unfold GatherDims.siIdx
      rw [dif_neg (by rw [hivd]; simp)]
      unfold GatherDims.siCoord
      apply Fin.ext
      simp only [Fin.val_cast]
      rw [getElem_of_eq_singleton hbd]
    | ⟨1, _⟩ =>
      unfold GatherDims.siIdx
      rw [dif_pos (by rw [hivd])]
      apply Fin.ext
      show List.idxOf (1 : Fin 2) d.startIndexMap = 0
      rw [hsim]; simp

end Cert.IndexMaps
-- ==== Proof.Wrap.lean ====
/-
  Python-style normalisation of an index word into an axis of length 4096: a negative word (read signed) has the
  axis length added; any other word is kept.  Both programs apply it to both index arrays before they use them.
-/
import Idealize.ShloMosaic.PureOps.Ideal

namespace Cert.Wrap

open Idealize.ShloMosaic

/-- `w + 4096` if `w < 0` (signed), else `w`. -/
def wrap (w : BitVec 32) : BitVec 32 := Scalar.select (IntOp.cmpi .slt w 0#32) (IntOp.addi w 4096#32) w

end Cert.Wrap
-- ==== Proof.KernelWeight.lean ====
/-
  What the two host-written windows of the kernel's region hold when the region is entered.

  Before the region the program builds, from the sparse entries (row index, column index, value), a dense
  4096 × 4096 matrix by a scatter with addition into zeros: entry j is added at position
  (normalised column index, normalised row index), where normalising adds 4096 to a negative index word, and an
  entry whose position falls outside the matrix is dropped.  It also lays the bias vector out as one row.
-/
import proofs.«424134_j9182640079528_1_alg».proof.Proof.Gen.KernelIdeal.Frame
import proofs.«424134_j9182640079528_1_alg».proof.Proof.IndexMaps
import proofs.«424134_j9182640079528_1_alg».proof.Proof.Wrap
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Weight

open Idealize.ShloMosaic Idealize.ShloMosaic.TcCoe Idealize.SL.Sem Idealize.ShloMosaic.ValueIdx
open Cert.KernelIdeal Cert.KernelIdeal.Gen Cert.Wrap

variable (m : (ℓ : Loc nD τ sig) → Buf (Elt Ideal) ℓ)

/-! ## The bias row -/

/-- The bias row the region finds, as one term of the launch memory's bias vector: its reshape to [1, 4096]. -/
theorem bias_whole (c : Dev nD) :
    (V m c main_v15 : S1x4096.Idx → Ideal .f32)
      = shapeCast S1x4096 (m ((c : Thread nD τ).loc main_arg4) : S4096.Idx → Ideal .f32) shapeCasts_S4096_S1x4096 := by
  dsimp only [Gen.V, Gen.hostOps0]
  after_results
  rfl

/-- The bias row the region finds: the bias vector laid out as one row (position (0, r) of the row is position r
    of the vector, both being element r in row-major order). -/
theorem bias_apply (c : Dev nD) (r : Fin 4096) :
    (V m c main_v15 : S1x4096.Idx → Ideal .f32) (ix2 (0 : Fin 1) r) = m ((c : Thread nD τ).loc main_arg4) (ix1 r) := by
  rw [bias_whole]
  exact shapeCast_a_1a_apply _ _ _ _

/-! ## The dense weight -/

set_option maxHeartbeats 1000000 in
/-- The dense weight the region finds, as one term of the launch memory's arrays: the scatter with addition of the
    values into the zero matrix at the [n, 2] array of index pairs, whose column 0 is the normalised column indices
    and whose column 1 is the normalised row indices (normalising, elementwise: "if a < 0 then a + 4096 else a"). -/
theorem weight_whole (c : Dev nD) :
    (V m c main_v14 : S4096x4096.Idx → Ideal .f32)
      = Host.scatterAdd scatter_S4096x4096_S3355443x2_S3355443_n_01_01_1
          (broadcastInDim S4096x4096 ![] bcast_S_S4096x4096 (constant (F := Ideal) S_ .f32 0x00000000#32))
          (concatenate S3355443x2 1
            [⟨S3355443x1, broadcastInDim S3355443x1 ![0] bcast_S3355443_S3355443x1_0 (select (cmpi .slt (m ((c : Thread nD τ).loc main_arg2)) (broadcastInDim S3355443 ![] bcast_S_S3355443 (constantI S_ 32 0#32))) (addi (m ((c : Thread nD τ).loc main_arg2)) (broadcastInDim S3355443 ![] bcast_S_S3355443 (constantI S_ 32 4096#32))) (m ((c : Thread nD τ).loc main_arg2)))⟩,
             ⟨S3355443x1, broadcastInDim S3355443x1 ![0] bcast_S3355443_S3355443x1_0 (select (cmpi .slt (m ((c : Thread nD τ).loc main_arg1)) (broadcastInDim S3355443 ![] bcast_S_S3355443 (constantI S_ 32 0#32))) (addi (m ((c : Thread nD τ).loc main_arg1)) (broadcastInDim S3355443 ![] bcast_S_S3355443 (constantI S_ 32 4096#32))) (m ((c : Thread nD τ).loc main_arg1)))⟩]
            concatenates_S3355443x1_S3355443x1_S3355443x2_d1)
          (m ((c : Thread nD τ).loc main_arg3)) := by
  dsimp only [Gen.V, Gen.hostOps0]
  after_results_simp
  rfl

/-! ## A scatter with addition by index pairs, read at an element -/

/-- A scatter with addition of n values into an [N, M] matrix by [n, 2] index pairs (every operand axis inserted,
    the index vector on axis 1 naming operand axes 0 and 1), read at element (a, b): the operand there plus the sum
    of the values whose two index words, read signed, are a and b.  The two columns of the index array are given
    as functions of the update's index (`colw`, `roww`). -/
theorem scatterAdd_pairs_apply {N M n : Nat} (d : ScatterDims ⟨2, ![N, M]⟩ ⟨2, ![n, 2]⟩ ⟨1, ![n]⟩)
    (huw : d.updateWindowDims = []) (hiw : d.insertedWindowDims = [0, 1])
    (hsd : d.scatterDimsToOperandDims = [0, 1]) (hivd : d.indexVectorDim = 1)
    (x : FVec Ideal ⟨2, ![N, M]⟩ .f32) (idx : IVec ⟨2, ![n, 2]⟩ 32) (upd : FVec Ideal ⟨1, ![n]⟩ .f32)
    (a : Fin N) (b : Fin M) (colw roww : (⟨1, ![n]⟩ : Shape).Idx → BitVec 32)
    (h0 : ∀ j : (⟨1, ![n]⟩ : Shape).Idx, idx (ix2 (j 0) (0 : Fin 2)) = colw j)
    (h1 : ∀ j : (⟨1, ![n]⟩ : Shape).Idx, idx (ix2 (j 0) (1 : Fin 2)) = roww j) :
    Host.scatterAdd d x idx upd (ix2 a b)
      = x (ix2 a b) + (∑ j ∈ Finset.univ.filter (fun j : (⟨1, ![n]⟩ : Shape).Idx =>
            (colw j).toInt = (a.val : Int) ∧ (roww j).toInt = (b.val : Int)), upd j : Ideal .f32) := by
  show x (ix2 a b) + ∑ j ∈ Finset.univ.filter (fun j => d.resultIdx? j idx = some (ix2 a b)), upd j = _
  refine congrArg (x (ix2 a b) + ·) (Finset.sum_congr (Finset.filter_congr fun j _ => ?_) fun _ _ => rfl)
  rw [IndexMaps.resultIdx?_pair d huw hiw hsd hivd, h0, h1]
  rfl

/-! ## The index pairs read at an element -/

/-- The normalised index vector as the program spells it: elementwise "if a < 0 then a + 4096 else a". -/
abbrev wrapVec (a : IVec S3355443 32) : IVec S3355443 32 :=
  select (cmpi .slt a (broadcastInDim S3355443 ![] bcast_S_S3355443 (constantI S_ 32 0#32)))
    (addi a (broadcastInDim S3355443 ![] bcast_S_S3355443 (constantI S_ 32 4096#32))) a

/-- The [n, 2] array of index pairs built from two index vectors: column 0 the first, normalised, column 1 the
    second, normalised. -/
abbrev pairsOf (a2 a1 : IVec S3355443 32) : IVec S3355443x2 32 :=
  concatenate S3355443x2 1
    [⟨S3355443x1, broadcastInDim S3355443x1 ![0] bcast_S3355443_S3355443x1_0 (wrapVec a2)⟩,
     ⟨S3355443x1, broadcastInDim S3355443x1 ![0] bcast_S3355443_S3355443x1_0 (wrapVec a1)⟩]
    concatenates_S3355443x1_S3355443x1_S3355443x2_d1

/-- The normalised vector at an index is the normalisation of the word at that index: every operation involved
    acts index by index, and a broadcast scalar reads as the scalar everywhere. -/
theorem wrapVec_apply (a : IVec S3355443 32) (i : S3355443.Idx) : wrapVec a i = wrap (a i) := rfl

/-- A vector laid out as an [n, 1] column reads, at (p, 0), the vector at p. -/
theorem col_apply (a : IVec S3355443 32) (p : Fin 3355443) (z : Fin 1) :
    broadcastInDim S3355443x1 ![0] bcast_S3355443_S3355443x1_0 a (ix2 p z) = a (ix1 p) :=
  broadcastInDim_apply _ _ _ _ (ix1 p) (fun b => by
    match b with
    | ⟨0, _⟩ =>
      show p.val = if (3355443 : Nat) = 1 then 0 else p.val
      rw [if_neg (by omega)])

/-- Column 0 of the index pairs: the first vector's word at p, normalised. -/
theorem pairsOf_col0 (a2 a1 : IVec S3355443 32) (p : Fin 3355443) :
    pairsOf a2 a1 (ix2 p (0 : Fin 2)) = wrap (a2 (ix1 p)) := by
  unfold pairsOf
  rw [concatenate_pair_apply_left (t := S3355443x2) (s₁ := S3355443x1) (s₂ := S3355443x1) (1 : Fin 2) _ _ _ (ix2 p (0 : Fin 2)) rfl (ix2 p (0 : Fin 1))
    (fun b => by match b with | ⟨0, _⟩ => rfl | ⟨1, _⟩ => rfl)]
  rw [col_apply, wrapVec_apply]

/-- Column 1 of the index pairs: the second vector's word at p, normalised. -/
theorem pairsOf_col1 (a2 a1 : IVec S3355443 32) (p : Fin 3355443) :
    pairsOf a2 a1 (ix2 p (1 : Fin 2)) = wrap (a1 (ix1 p)) := by
  unfold pairsOf
  rw [concatenate_pair_apply_right (t := S3355443x2) (s₁ := S3355443x1) (s₂ := S3355443x1) (1 : Fin 2) _ _ _ (ix2 p (1 : Fin 2)) rfl rfl (ix2 p (0 : Fin 1))
    (fun b hb => by
      match b with
      | ⟨0, _⟩ => rfl
      | ⟨1, _⟩ => exact absurd rfl hb)
    rfl]
  rw [col_apply, wrapVec_apply]

/-- Element (c', r) of the dense weight the region finds: the sum of the values of the entries whose normalised
    column index is c' and whose normalised row index is r (an entry with either index outside the matrix lands
    nowhere).  The scatter adds to the zero matrix, at each position, the values whose index pair, read signed, is
    that position. -/
theorem weight_apply (c : Dev nD) (c' r : Fin 4096) :
    (V m c main_v14 : S4096x4096.Idx → Ideal .f32) (ix2 c' r)
      = 0 + (∑ j ∈ Finset.univ.filter (fun j : S3355443.Idx =>
              (wrap (m ((c : Thread nD τ).loc main_arg2) j)).toInt = (c'.val : Int) ∧ (wrap (m ((c : Thread nD τ).loc main_arg1) j)).toInt = (r.val : Int)),
            m ((c : Thread nD τ).loc main_arg3) j : Ideal .f32) := by
  -- the zero matrix at (c', r): the zero word's value
  have hz : broadcastInDim S4096x4096 ![] bcast_S_S4096x4096 (constant (F := Ideal) S_ .f32 0x00000000#32) (ix2 c' r) = (0 : EReal) := by
    show Ideal.ofBits .f32 0x00000000#32 = 0
    simp [Ideal.ofBits, Ideal.ieee]
  rewrite [weight_whole]
  refine (scatterAdd_pairs_apply scatter_S4096x4096_S3355443x2_S3355443_n_01_01_1 rfl rfl rfl rfl _ _ _ c' r
    (fun j => wrap (m ((c : Thread nD τ).loc main_arg2) j)) (fun j => wrap (m ((c : Thread nD τ).loc main_arg1) j))
    (fun j => (pairsOf_col0 _ _ (j 0)).trans (congrArg (fun i => wrap (m ((c : Thread nD τ).loc main_arg2) i)) (eq_ix1 j).symm))
    (fun j => (pairsOf_col1 _ _ (j 0)).trans (congrArg (fun i => wrap (m ((c : Thread nD τ).loc main_arg1) i)) (eq_ix1 j).symm))).trans ?_
  exact congrArg (fun t : EReal => t + _) hz

end Cert.KernelIdeal.Weight

end
-- ==== Proof.RefDense.lean ====
/-
  The reference program's result, read at one element.

  The reference gates x elementwise, normalises both index arrays, gathers for every entry j the column of the gated x
  that entry j's column index names, multiplies it by value j, and scatter-adds the products into a zero matrix at the
  columns the row indices name; last it adds the bias along the rows.  Read at element (b, r) this is a sum over the
  entries whose normalised row index is r.  The sums range over index sets of several million elements and are never
  computed with: they are re-indexed by coordinates and compared term by term.
-/
import proofs.«424134_j9182640079528_1_alg».proof.Proof.Gen.ReferenceIdeal.Read
import proofs.«424134_j9182640079528_1_alg».proof.Proof.IndexMaps
import proofs.«424134_j9182640079528_1_alg».proof.Proof.Gate
import proofs.«424134_j9182640079528_1_alg».proof.Proof.Wrap
import Idealize.ShloMosaic.Lib.ValueIdx
import Idealize.ShloMosaic.PureOps.Ideal.Laws

noncomputable section

open scoped BigOperators

namespace Cert.ReferenceIdeal.Dense

open Idealize.ShloMosaic Idealize.ShloMosaic.ValueIdx Cert.ReferenceIdeal Cert.ReferenceIdeal.Gen Cert.ReferenceIdeal.Read Cert.Gate Cert.Wrap

/-! ## Sums over index sets, by coordinates -/

/-- A rank-1 index set is its one coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ p : Fin n, f (ix1 p) := by
  rw [← Equiv.sum_comp (idxEquiv1 (n := n)).symm f]
  rfl

/-- The same under a condition: the indices that satisfy it are the coordinates whose index does. -/
theorem sum_filter_idx1 {A : Type*} [AddCommMonoid A] {n : Nat} (R : (⟨1, ![n]⟩ : Shape).Idx → Prop) [DecidablePred R]
    (f : (⟨1, ![n]⟩ : Shape).Idx → A) :
    ∑ i ∈ Finset.univ.filter R, f i = ∑ p ∈ Finset.univ.filter (fun p : Fin n => R (ix1 p)), f (ix1 p) := by
  rw [Finset.sum_filter, Finset.sum_filter, sum_idx1]

/-- A sum over the indices of a [B, n] rectangle that lie in row `b` and whose column satisfies `Q` is the sum over
    the columns that satisfy `Q`, read in row `b`: every other row contributes nothing. -/
theorem sum_filter_row {A : Type*} [AddCommMonoid A] {B n : Nat} (b : Fin B) (Q : Fin n → Prop) [DecidablePred Q]
    (P : (⟨2, ![B, n]⟩ : Shape).Idx → Prop) [DecidablePred P] (hP : ∀ j, P j ↔ (j 0).val = b.val ∧ Q (j 1))
    (f : (⟨2, ![B, n]⟩ : Shape).Idx → A) :
    ∑ j ∈ Finset.univ.filter P, f j = ∑ p ∈ Finset.univ.filter Q, f (ix2 b p) := by
  rw [Finset.sum_filter, Finset.sum_filter, sum_idx2]
  have hrow : ∀ (a : Fin B) (p : Fin n), P (ix2 a p) ↔ a.val = b.val ∧ Q p := fun a p => hP (ix2 a p)
  rw [Finset.sum_eq_single b]
  · refine Finset.sum_congr rfl fun p _ => if_congr ?_ rfl rfl
    rw [hrow]
    exact and_iff_right rfl
  · intro a _ hab
    refine Finset.sum_eq_zero fun p _ => if_neg ?_
    rw [hrow]
    exact fun h => hab (Fin.ext h.1)
  · intro h
    exact absurd (Finset.mem_univ b) h

/-! ## The reference's stages read at an index -/

/-- The gated input: each element of x passes the gate. -/
theorem gated_apply (x0 : FVec Ideal S64x4096 .f32) (i : S64x4096.Idx) :
    val_main_v2 (F := Ideal) x0 i = gate (x0 i) := by
  rw [val_main_v2_apply, val_main_v1_apply, val_main_v0_apply, val_main_cst_apply, val_main_call0_v0_apply,
    val_main_cst_0_apply]
  rfl

/-- The column of normalised row indices: its row `p` is entry `p`'s row index, normalised. -/
theorem rowN_apply (x1 : IVec S3355443 32) (p : Fin 3355443) :
    val_main_v19 (F := Ideal) x1 (ix2 p (0 : Fin 1)) = wrap (x1 (ix1 p)) := by
  rw [val_main_v19_apply, val_main_v18_apply, val_main_v15_apply, val_main_v17_apply, val_main_v14_apply,
    val_main_v16_apply, val_main_c_3_apply, val_main_c_4_apply]
  have : idx_main_v19 (ix2 p (0 : Fin 1)) = ix1 p := by
    funext a; match a with | ⟨0, _⟩ => rfl
  rw [this]
  rfl

/-- The column of normalised column indices: its row `p` is entry `p`'s column index, normalised. -/
theorem colN_apply (x2 : IVec S3355443 32) (p : Fin 3355443) :
    val_main_v9 (F := Ideal) x2 (ix2 p (0 : Fin 1)) = wrap (x2 (ix1 p)) := by
  rw [val_main_v9_apply, val_main_v8_apply, val_main_v5_apply, val_main_v7_apply, val_main_v4_apply,
    val_main_v6_apply, val_main_c_apply, val_main_c_1_apply]
  have : idx_main_v9 (ix2 p (0 : Fin 1)) = ix1 p := by
    funext a; match a with | ⟨0, _⟩ => rfl
  rw [this]
  rfl

/-- The bias laid along the rows: at (b, r) it is bias r. -/
theorem bias_apply (x4 : FVec Ideal S4096 .f32) (b : Fin 64) (r : Fin 4096) :
    val_main_v22 (F := Ideal) x4 (ix2 b r) = x4 (ix1 r) := by
  rw [val_main_v22_apply, val_main_v21_apply]
  congr 1
  funext a; match a with | ⟨0, _⟩ => rfl

/-- The values laid along the columns: at (b, p) it is value p. -/
theorem vals_apply (x3 : FVec Ideal S3355443 .f32) (b : Fin 64) (p : Fin 3355443) :
    val_main_v11 (F := Ideal) x3 (ix2 b p) = x3 (ix1 p) := by
  rw [val_main_v11_apply, val_main_v3_apply]
  congr 1
  funext a; match a with | ⟨0, _⟩ => rfl

/-- The gathered columns: at (b, p), the gated x at row b and at entry p's normalised column index, which is in
    range so that the gather's clamp does nothing. -/
theorem gathered_apply (x0 : FVec Ideal S64x4096 .f32) (x2 : IVec S3355443 32) (b : Fin 64) (p : Fin 3355443)
    (h : 0 ≤ (wrap (x2 (ix1 p))).toInt ∧ (wrap (x2 (ix1 p))).toInt < 4096) :
    val_main_v10 (F := Ideal) x0 x2 (ix2 b p)
      = gate (x0 (ix2 b ⟨(wrap (x2 (ix1 p))).toInt.toNat, by omega⟩)) := by
  unfold val_main_v10
  rw [Cert.IndexMaps.gather_cols _ rfl rfl rfl rfl rfl (by omega), gated_apply]
  congr 3
  apply Fin.ext
  show min (val_main_v9 (F := Ideal) x2 (ix2 p (0 : Fin 1))).toInt.toNat (4096 - 1) = (wrap (x2 (ix1 p))).toInt.toNat
  rw [colN_apply]
  omega

/-- The products: at (b, p), value p times the gated x at row b and entry p's column. -/
theorem contrib_apply (x0 : FVec Ideal S64x4096 .f32) (x2 : IVec S3355443 32) (x3 : FVec Ideal S3355443 .f32)
    (b : Fin 64) (p : Fin 3355443) (h : 0 ≤ (wrap (x2 (ix1 p))).toInt ∧ (wrap (x2 (ix1 p))).toInt < 4096) :
    val_main_v12 (F := Ideal) x0 x2 x3 (ix2 b p)
      = x3 (ix1 p) * gate (x0 (ix2 b ⟨(wrap (x2 (ix1 p))).toInt.toNat, by omega⟩)) := by
  rw [val_main_v12_apply, vals_apply, gathered_apply x0 x2 b p h]
  rfl

/-- Which updates land on (b, r): update (b', p) does exactly when b' = b and entry p's normalised row index is r. -/
theorem lands_iff (x1 : IVec S3355443 32) (b : Fin 64) (r : Fin 4096) (j : S64x3355443.Idx) :
    scatter_S64x4096_S3355443x1_S64x3355443_0_1_1_1.resultIdx? j (val_main_v19 (F := Ideal) x1) = some (ix2 b r) ↔
      (j 0).val = b.val ∧ (wrap (x1 (ix1 (j 1)))).toInt = (r.val : Int) := by
  rw [Cert.IndexMaps.resultIdx?_rows _ rfl rfl rfl rfl]
  have h : val_main_v19 (F := Ideal) x1 (ix2 (j 1) (0 : Fin 1)) = wrap (x1 (ix1 (j 1))) := rowN_apply x1 (j 1)
  show (j 0).val = b.val ∧ (val_main_v19 (F := Ideal) x1 (ix2 (j 1) (0 : Fin 1))).toInt = (r.val : Int) ↔ _
  rw [h]

/-- The scatter's result at (b, r): zero plus the products of row b at the entries whose normalised row index is r. -/
theorem scattered_apply (x0 : FVec Ideal S64x4096 .f32) (x1 x2 : IVec S3355443 32) (x3 : FVec Ideal S3355443 .f32)
    (hcol : ∀ j, 0 ≤ (wrap (x2 j)).toInt ∧ (wrap (x2 j)).toInt < 4096) (b : Fin 64) (r : Fin 4096) :
    val_main_v20 (F := Ideal) x0 x1 x2 x3 (ix2 b r)
      = 0 + ∑ j ∈ Finset.univ.filter (fun j : S3355443.Idx => (wrap (x1 j)).toInt = (r.val : Int)),
              x3 j * gate (x0 (ix2 b ⟨(wrap (x2 j)).toInt.toNat, by have := hcol j; omega⟩)) := by
  rw [val_main_v20, Host.scatterAdd, Ideal.hostScatterAdd_def, Ideal.hostScatterAdd]
  have hz : val_main_v13 (F := Ideal) (ix2 b r) = 0 := by
    rw [val_main_v13_apply, val_main_cst_2_apply]
    exact Ideal.ofBits_zero_f32
  rw [hz, sum_filter_row b (fun p : Fin 3355443 => (wrap (x1 (ix1 p))).toInt = (r.val : Int)) _ (lands_iff x1 b r),
    sum_filter_idx1]
  refine congrArg (fun t => 0 + t) (Finset.sum_congr rfl fun p _ => ?_)
  exact contrib_apply x0 x2 x3 b p (hcol (ix1 p))
/-! ## The result at an index -/

/-- At the ideal values, when every normalised column index lies in [0, 4096): element (b, r) of the reference's
    result is the sum, over the entries j whose normalised row index is r, of value j times the gated x at row b and
    entry j's column — plus bias r.  The scatter starts from zeros and adds to (b, r) the products of the updates
    that land there; update (b', p) lands on (b, r) exactly when b' = b and entry p's normalised row index is r, so
    only row b of the products contributes, and of it the entries whose row index is r. -/
theorem result_apply (x0 : FVec Ideal S64x4096 .f32) (x1 x2 : IVec S3355443 32) (x3 : FVec Ideal S3355443 .f32) (x4 : FVec Ideal S4096 .f32)
    (hcol : ∀ j, 0 ≤ (wrap (x2 j)).toInt ∧ (wrap (x2 j)).toInt < 4096) (b : Fin 64) (r : Fin 4096) :
    val_main_v23 (F := Ideal) x0 x1 x2 x3 x4 (ix2 b r)
      = (0 + ∑ j ∈ Finset.univ.filter (fun j : S3355443.Idx => (wrap (x1 j)).toInt = (r.val : Int)),
              x3 j * gate (x0 (ix2 b ⟨(wrap (x2 j)).toInt.toNat, by have := hcol j; omega⟩))) + x4 (ix1 r) := by
  rw [val_main_v23_apply, bias_apply, scattered_apply x0 x1 x2 x3 hcol b r]
  rfl

end Cert.ReferenceIdeal.Dense

end
-- ==== Proof.InputDomain.lean ====
/-
  What the precondition says of the inputs, element by element, and two small facts about the index
  arithmetic built on it.

  The precondition is a conjunction of five "for all elements" tests: |x| < +∞, |values| < +∞, |bias| < +∞,
  column index ≥ -4096 (signed), column index < 4096 (signed). Over the extended reals |a| = max a (-a), and
  max a (-a) < ⊤ holds exactly when a is neither ⊤ nor ⊥, i.e. when a is a real number.
-/
import proofs.«424134_j9182640079528_1_alg».proof.Pre_finite_inputs
import proofs.«424134_j9182640079528_1_alg».proof.Proof.Gen.Pre_finite_inputs
import Idealize.ShloMosaic.PureOps.Ideal
import Idealize.ShloMosaic.Lib.ReduceAll
import Idealize.ShloMosaic.Lib.Affine
import Idealize.ShloMosaic.Lib.ValueIdx

noncomputable section

namespace Cert.InputDomain

open Idealize.ShloMosaic

/-- Python-style normalisation of an index word into an axis of length 4096: a negative word has 4096 added.
    On [-4096, 4096) the result, read signed, lies in [0, 4096): a negative w ≥ -4096 gives w + 4096 ∈ [0, 4096)
    with no wrap-around, a nonnegative w < 4096 is kept. -/
theorem norm_range (w : BitVec 32) (h : -4096 ≤ w.toInt ∧ w.toInt < 4096) :
    0 ≤ (Scalar.select (IntOp.cmpi .slt w 0#32) (IntOp.addi w 4096#32) w).toInt
      ∧ (Scalar.select (IntOp.cmpi .slt w 0#32) (IntOp.addi w 4096#32) w).toInt < 4096 := by
  obtain ⟨hlo, hhi⟩ := h
  have h0 : (0#32).toInt = 0 := by decide
  unfold Scalar.select
  by_cases hneg : IntOp.cmpi .slt w 0#32 = (1 : BitVec 1)
  · rw [if_pos hneg]
    have hlt : w.toInt < 0 := by
      have := IntOp.cmpi_slt.1 hneg
      rwa [h0] at this
    have hadd : (IntOp.addi w 4096#32).toInt = w.toInt + 4096 := by
      unfold IntOp.addi
      rw [BitVec.toInt_add]
      have h4 : (4096#32).toInt = 4096 := by decide
      rw [h4]
      exact Int.bmod_eq_of_le_mul_two (by omega) (by omega)
    omega
  · rw [if_neg hneg]
    have hge : ¬ w.toInt < 0 := by
      intro hc
      exact hneg (IntOp.cmpi_slt.2 (by rw [h0]; exact hc))
    omega

open Cert.Pre_finite_inputs

/-- The scalar shape has exactly one index. -/
instance subsingleton_S_Idx : Subsingleton S_.Idx := ⟨fun a b => funext fun d => d.elim0⟩

/-- An extended real whose absolute value max a (-a) lies strictly below +∞ is a real number: at a = ⊤ the
    maximum is ⊤, at a = ⊥ it is -⊥ = ⊤, and neither is below ⊤. (The word 0x7F800000 is the f32 pattern of +∞.) -/
theorem real_of_abs_lt_inf (a : Ideal .f32)
    (h : FloatOps.cmpf (F := Ideal) .olt (FloatOps.hostAbsf a) (FloatOps.ofBits .f32 0x7F800000#32) = 1#1) :
    ∃ r : ℝ, a = (r : EReal) := by
  have htop : Ideal.ofBits .f32 0x7F800000#32 = ⊤ := by simp [Ideal.ofBits, Ideal.ieee]
  change Ideal.cmp .olt (max (a : EReal) (-(a : EReal))) (Ideal.ofBits .f32 0x7F800000#32) = 1#1 at h
  rw [htop] at h
  unfold Ideal.cmp at h
  induction a using EReal.rec with
  | bot => simp at h
  | coe r => exact ⟨r, rfl⟩
  | top => simp at h

/-- Under the precondition every element of x and of values is (the image of) a real number, and every column
    index, read as a signed word, lies in [-4096, 4096).

    The precondition is the conjunction of five reductions by "and" to one scalar; the scalar being 1 makes each
    conjunct 1, each conjunct being 1 makes every element of the reduced test array 1, and an element of a test
    array is the comparison of one input element with the (broadcast) constant. -/
theorem of_pre [Cert.Pre_finite_inputs.Facts]
    (x : FVec Ideal Cert.Pre_finite_inputs.S64x4096 .f32) (row col : IVec Cert.Pre_finite_inputs.S3355443 32)
    (v : FVec Ideal Cert.Pre_finite_inputs.S3355443 .f32) (bias : FVec Ideal Cert.Pre_finite_inputs.S4096 .f32)
    (h : Cert.Pre_finite_inputs.fn (F := Ideal) x row col v bias = fun _ => 1#1) :
    (∀ i, ∃ r : ℝ, x i = (r : EReal)) ∧ (∀ j, ∃ r : ℝ, v j = (r : EReal))
      ∧ (∀ j, -4096 ≤ (col j).toInt ∧ (col j).toInt < 4096) := by
  have h0 := congrFun h ValueIdx.ix0
  unfold Cert.Pre_finite_inputs.fn at h0
  dsimp only at h0
  unfold Cert.Pre_finite_inputs.fn_part1 at h0
  dsimp only at h0
  -- the five conjuncts, outermost "and" first
  obtain ⟨h1234, h5⟩ := IntOp.andi_eq_one.1 h0
  obtain ⟨h123, h4⟩ := IntOp.andi_eq_one.1 h1234
  obtain ⟨h12, _⟩ := IntOp.andi_eq_one.1 h123
  obtain ⟨h1, h2⟩ := IntOp.andi_eq_one.1 h12
  -- each "all" gives its test at every index
  have e1 := Host.reduce_andi_all _ _ _ _ _ h1
  have e2 := Host.reduce_andi_all _ _ _ _ _ h2
  have e4 := Host.reduce_andi_all _ _ _ _ _ h4
  have e5 := Host.reduce_andi_all _ _ _ _ _ h5
  have hlo : (4294963200#32).toInt = -4096 := by decide
  have hhi : (4096#32).toInt = 4096 := by decide
  refine ⟨fun i => real_of_abs_lt_inf (x i) (e1 i), fun j => real_of_abs_lt_inf (v j) (e2 j), fun j => ⟨?_, ?_⟩⟩
  · -- the broadcast constant at index j is the constant itself
    have : (4294963200#32).toInt ≤ (col j).toInt := IntOp.cmpi_sge.1 (e4 j)
    rwa [hlo] at this
  · have : (col j).toInt < (4096#32).toInt := IntOp.cmpi_slt.1 (e5 j)
    rwa [hhi] at this

/-- The event gate keeps finiteness: it returns either the real number it was given (when that exceeds the
    threshold) or the value of the zero word, which is the real 0. -/
theorem gate_real (a : ℝ) :
    ∃ r : ℝ, Scalar.select (FloatOps.cmpf (F := Ideal) .ogt ((a : EReal) : Ideal .f32) (Ideal.ofBits .f32 0x3C23D70A#32))
        ((a : EReal) : Ideal .f32) (Ideal.ofBits .f32 0x00000000#32) = ((r : EReal) : Ideal .f32) := by
  have hz : Ideal.ofBits .f32 0x00000000#32 = ((0 : ℝ) : EReal) := by simp [Ideal.ofBits, Ideal.ieee]
  unfold Scalar.select
  split
  · exact ⟨a, rfl⟩
  · exact ⟨0, hz⟩

end Cert.InputDomain

end
-- ==== Proof.SparseSum.lean ====
/-
  The algebra that joins the two programs, over abstract finite index types.

  A sparse matrix is given by entries `j` with a column `col j`, a weight `v j` and a side condition `Q j`
  (below: "entry `j` lies in output row `r`").  One program first densifies the entries, summing for each column
  `c` the weights of the entries with `col j = c ∧ Q j`, and then contracts the dense row against `x`; the other
  multiplies each entry's weight by `x (col j)` and sums the products over the entries with `Q j`.  Over the reals
  the two are one number: distribute `x c` over the inner sum, exchange the two sums, and collapse the sum over
  `c` at `c = col j`.  The extended reals do not distribute at the infinities, so the statement is about finite
  data: every `x c` and every `v j` is the image of a real number.
-/
import Idealize.ShloMosaic.PureOps.Ideal
import Idealize.ShloMosaic.Lib.ValueIdx

noncomputable section

namespace Cert.SparseSum

open Finset

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: contracting `x` against the densified entries is summing the entries' products. -/
theorem densify_real {C J : Type*} [Fintype C] [DecidableEq C] [Fintype J]
    (col : J → C) (Q : J → Prop) [DecidablePred Q] (x : C → ℝ) (v : J → ℝ) :
    ∑ c, x c * ∑ j ∈ univ.filter (fun j => col j = c ∧ Q j), v j
      = ∑ j ∈ univ.filter Q, v j * x (col j) := by
  calc ∑ c, x c * ∑ j ∈ univ.filter (fun j => col j = c ∧ Q j), v j
      = ∑ c, ∑ j ∈ univ.filter Q, (if col j = c then x c * v j else 0) := by
        refine sum_congr rfl fun c _ => ?_
        rw [mul_sum, ← sum_filter, filter_filter]
        refine sum_congr ?_ fun _ _ => rfl
        ext j; simp only [mem_filter, mem_univ, true_and]; exact and_comm
    _ = ∑ j ∈ univ.filter Q, ∑ c, (if col j = c then x c * v j else 0) := sum_comm
    _ = ∑ j ∈ univ.filter Q, v j * x (col j) := by
        refine sum_congr rfl fun j _ => ?_
        rw [sum_ite_eq, if_pos (mem_univ _), mul_comm]

/-- The same on the extended reals, for finite data; the densified sum starts from `0`, as a scatter into a
    zero matrix does. -/
theorem densify {C J : Type*} [Fintype C] [DecidableEq C] [Fintype J]
    (col : J → C) (Q : J → Prop) [DecidablePred Q] (x : C → ℝ) (v : J → ℝ) :
    ∑ c, (x c : EReal) * (0 + ∑ j ∈ univ.filter (fun j => col j = c ∧ Q j), (v j : EReal))
      = ∑ j ∈ univ.filter Q, (v j : EReal) * (x (col j) : EReal) := by
  simp only [zero_add, ← coe_sum, ← EReal.coe_mul]
  rw [densify_real]

end Cert.SparseSum

end
-- ==== Proof.Bridge.lean ====
/-
  The two programs compute one function.

  The kernel's result is  out(b, r) = Σ_p gate(x(b, p)) · W(p, r) + bias(r)  with the dense weight
  W(p, r) = Σ { values j : column j = p and row j = r }  (indices normalised Python-style; an entry whose column or
  row falls outside the matrix lands nowhere).  The reference's result is
  out(b, r) = Σ { values j · gate(x(b, column j)) : row j = r } + bias(r),  where it reads `x` at the column index
  CLAMPED into [0, 4095].  Under the precondition every normalised column index already lies in [0, 4096), so the
  clamp does nothing and "column j = p" picks exactly one p; and every `x` and every value is a real number, so
  `gate(x(b, p))` distributes over the inner sum.  Distributing, exchanging the two sums and collapsing the sum
  over p at p = column j turns the kernel's expression into the reference's (`SparseSum.densify`).
-/
import proofs.«424134_j9182640079528_1_alg».proof.Proof.KernelDense
import proofs.«424134_j9182640079528_1_alg».proof.Proof.KernelWeight
import proofs.«424134_j9182640079528_1_alg».proof.Proof.RefDense
import proofs.«424134_j9182640079528_1_alg».proof.Proof.InputDomain
import proofs.«424134_j9182640079528_1_alg».proof.Proof.SparseSum

set_option maxRecDepth 16384

noncomputable section

open Idealize.ShloMosaic Idealize.ShloMosaic.TcCoe Idealize.SL.Sem Idealize.ShloMosaic.ValueIdx

namespace Cert.Bridge

open Cert.KernelIdeal Cert.KernelIdeal.Gen Cert.Gate Cert.Wrap

/-- The dense layer over a weight `W` that is the densified entries, and a bias row that is the bias vector, is the
    reference's result — for arrays satisfying the precondition. -/
theorem layer_eq (x : FVec Ideal S64x4096 .f32) (row col : IVec S3355443 32) (v : FVec Ideal S3355443 .f32)
    (bias : FVec Ideal S4096 .f32) (W : FVec Ideal S4096x4096 .f32) (brow : FVec Ideal S1x4096 .f32)
    (hW : ∀ p r : Fin 4096, W (ix2 p r) = 0 + ∑ j ∈ Finset.univ.filter (fun j : S3355443.Idx =>
        (wrap (col j)).toInt = (p.val : Int) ∧ (wrap (row j)).toInt = (r.val : Int)), v j)
    (hb : ∀ r : Fin 4096, brow (ix2 (0 : Fin 1) r) = bias (ix1 r))
    (hpre : Cert.Pre_finite_inputs.fn (F := Ideal) x row col v bias = fun _ => 1#1) (b : Fin 64) (r : Fin 4096) :
    (∑ p : Fin 4096, gate (x (ix2 b p)) * W (ix2 p r)) + brow (ix2 (0 : Fin 1) r)
      = Cert.ReferenceIdeal.Read.val_main_v23 (F := Ideal) x row col v bias (ix2 b r) := by
  obtain ⟨hx, hv, hcol⟩ := Cert.InputDomain.of_pre x row col v bias hpre
  have hcolw : ∀ j, 0 ≤ (wrap (col j)).toInt ∧ (wrap (col j)).toInt < 4096 := fun j => Cert.InputDomain.norm_range _ (hcol j)
  rw [Cert.ReferenceIdeal.Dense.result_apply x row col v bias hcolw b r, hb r]
  refine congrArg (· + bias (ix1 r)) ?_
  -- real representatives of the gated row of x and of the values
  have hg : ∀ p : Fin 4096, ∃ a : ℝ, gate (x (ix2 b p)) = ((a : EReal) : Ideal .f32) := fun p => by
    obtain ⟨a, ha⟩ := hx (ix2 b p)
    rw [ha]
    exact gate_real a
  choose g hg using hg
  choose vr hvr using hv
  -- the column of an entry, as a position
  let colF : S3355443.Idx → Fin 4096 := fun j => ⟨(wrap (col j)).toInt.toNat, by have := hcolw j; omega⟩
  have key : ∀ (p : Fin 4096) (j : S3355443.Idx),
      ((wrap (col j)).toInt = (p.val : Int) ∧ (wrap (row j)).toInt = (r.val : Int))
        ↔ (colF j = p ∧ (wrap (row j)).toInt = (r.val : Int)) := by
    intro p j
    have := hcolw j
    constructor
    · rintro ⟨h1, h2⟩
      exact ⟨Fin.ext (by show (wrap (col j)).toInt.toNat = p.val; omega), h2⟩
    · rintro ⟨h1, h2⟩
      have h3 : (wrap (col j)).toInt.toNat = p.val := congrArg Fin.val h1
      exact ⟨by omega, h2⟩
  have step1 : ∑ p : Fin 4096, gate (x (ix2 b p)) * W (ix2 p r)
      = ∑ p : Fin 4096, ((g p : EReal) : Ideal .f32) * (0 + ∑ j ∈ Finset.univ.filter (fun j : S3355443.Idx =>
          colF j = p ∧ (wrap (row j)).toInt = (r.val : Int)), ((vr j : EReal) : Ideal .f32)) := by
    refine Finset.sum_congr rfl fun p _ => ?_
    rw [hW p r, hg p, Finset.filter_congr (fun j _ => key p j)]
    exact congrArg (fun s => ((g p : EReal) : Ideal .f32) * (0 + s)) (Finset.sum_congr rfl fun j _ => hvr j)
  have step2 : ∑ j ∈ Finset.univ.filter (fun j : S3355443.Idx => (wrap (row j)).toInt = (r.val : Int)),
        v j * gate (x (ix2 b (colF j)))
      = ∑ j ∈ Finset.univ.filter (fun j : S3355443.Idx => (wrap (row j)).toInt = (r.val : Int)),
        ((vr j : EReal) : Ideal .f32) * ((g (colF j) : EReal) : Ideal .f32) :=
    Finset.sum_congr rfl fun j _ => by rw [hvr j, hg (colF j)]
  rw [step1, zero_add]
  exact (Cert.SparseSum.densify colF (fun j => (wrap (row j)).toInt = (r.val : Int)) g vr).trans step2.symm

variable (m : (ℓ : Loc nD τ sig) → Buf (Elt Ideal) ℓ)

/-- Under the precondition the kernel's result array is the reference's result term of the same argument arrays. -/
theorem dense_eq (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    Cert.KernelIdeal.Dense.dense m c
      = Cert.ReferenceIdeal.Read.val_main_v23 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  funext i
  obtain ⟨b, r, rfl⟩ : ∃ (b : Fin 64) (r : Fin 4096), i = ix2 b r := ⟨i 0, i 1, eq_ix2 i⟩
  rw [Cert.KernelIdeal.Dense.dense_apply]
  dsimp only [Cert.KernelIdeal.Dense.xarr, Cert.KernelIdeal.Dense.warr, Cert.KernelIdeal.Dense.barr]
  rw [V_main_arg0 m c]
  exact layer_eq (m ((c : Thread nD τ).loc main_arg0)) (m ((c : Thread nD τ).loc main_arg1)) (m ((c : Thread nD τ).loc main_arg2))
    (m ((c : Thread nD τ).loc main_arg3)) (m ((c : Thread nD τ).loc main_arg4)) (V m c main_v14) (V m c main_v15)
    (fun p r => Cert.KernelIdeal.Weight.weight_apply m c p r) (fun r => Cert.KernelIdeal.Weight.bias_apply m c r) hpre b r

end Cert.Bridge

end
-- ==== Proof.lean ====
/-
  A COO sparse linear layer with an event gate, in two arrangements.

  Inputs: x [64, 4096], entries j < 3355443 with a row index, a column index and a value, and a bias [4096].  Both
  programs first replace x by gate(x) = (x if x > 0.01 else 0) and normalise negative indices by adding 4096.

    kernel:     scatters the values into a dense matrix W[column j, row j] += value j (an entry with an index outside the
                matrix is dropped), then computes  out = gate(x) · W + bias  by a tiled matrix product: the output in two
                column blocks, the 4096 contraction positions in four steps accumulated in scratch memory, the bias added
                at the last step;
    reference:  gathers gate(x)[:, column j] for every entry (a column index outside [0, 4095] is CLAMPED), multiplies by
                value j, and scatter-adds the products into out[:, row j] (an entry whose row is outside is dropped), then
                adds the bias.

  With a column index outside [-4096, 4096) the two differ (the kernel drops the entry, the reference reads the clamped
  column), so the statement carries the domain on which the reference's own indexing is in range: every column index in
  [-4096, 4096).  A row index outside its range is harmless: both drop the entry.  On that domain, and with x and the
  values finite (distributing gate(x) over a sum of values needs real numbers), both results are
      out(b, r) = Σ { value j · gate(x(b, column j)) : row j = r } + bias(r).

  The modules: SparseSum (the exchange of sums), Gate and Wrap (the gate and the index normalisation on one element),
  IndexMaps (which element a gather / scatter index touches), InputDomain (the precondition read into finiteness and the
  column range), KernelPieces / KernelPayloads / KernelBlocks / KernelDense (the kernel's result array as one function of
  the arrays the region finds), KernelWeight (the dense weight and the bias row the host operations hand the region),
  RefDense (the reference's result at an element), Bridge (the two are equal).
-/
import proofs.«424134_j9182640079528_1_alg».proof.Defs
import proofs.«424134_j9182640079528_1_alg».proof.Proof.Gen.Kernel
import proofs.«424134_j9182640079528_1_alg».proof.Proof.Gen.Kernel.Skeleton
import proofs.«424134_j9182640079528_1_alg».proof.Proof.Gen.Kernel.Launch
import proofs.«424134_j9182640079528_1_alg».proof.Proof.Gen.Kernel.Points
import proofs.«424134_j9182640079528_1_alg».proof.Proof.Gen.Kernel.Frame
import proofs.«424134_j9182640079528_1_alg».proof.Proof.Gen.KernelIdeal
import proofs.«424134_j9182640079528_1_alg».proof.Proof.Gen.KernelIdeal.Skeleton
import proofs.«424134_j9182640079528_1_alg».proof.Proof.Gen.KernelIdeal.Launch
import proofs.«424134_j9182640079528_1_alg».proof.Proof.Gen.KernelIdeal.Points
import proofs.«424134_j9182640079528_1_alg».proof.Proof.Gen.KernelIdeal.Frame
import proofs.«424134_j9182640079528_1_alg».proof.Proof.Gen.ReferenceIdeal
import proofs.«424134_j9182640079528_1_alg».proof.Proof.Gen.Pre_finite_inputs
import proofs.«424134_j9182640079528_1_alg».proof.Proof.Gen.KernelIdeal.Value
import proofs.«424134_j9182640079528_1_alg».proof.Proof.Gen.ReferenceIdeal.Run
import proofs.«424134_j9182640079528_1_alg».proof.Proof.Gen.ReferenceIdeal.Read
import proofs.«424134_j9182640079528_1_alg».proof.Proof.Bridge
import Idealize.ShloMosaic.Adequacy
import Idealize.ShloMosaic.Init

noncomputable section

namespace Cert.Proof

open Idealize.ShloMosaic Idealize.SL.Sem Cert.Kernel

/-- The word-level kernel runs and leaves its arguments alone: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the ideal values the kernel's result array ends at the dense layer of the arrays its host operations built, the
    reference's at its own composed term of arguments that agree; under the precondition these are one array. -/
theorem algebraic : Cert.algebraic_KernelIdeal_ReferenceIdeal := by
  intro m ρ m' ρ' hpre hagree
  refine ⟨fun c => Cert.KernelIdeal.Dense.dense m c, Cert.KernelIdeal.Dense.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2.1, (hagree c).2.2.1, (hagree c).2.2.2.1,
    (hagree c).2.2.2.2]
  exact (Cert.Bridge.dense_eq m c (hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
